-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x4096 : Shape := ⟨3, ![1, 32, 4096]⟩
abbrev S1x8192x4096 : Shape := ⟨3, ![1, 8192, 4096]⟩
abbrev S_ : Shape := ⟨0, ![]⟩

class Facts : Prop where
  bcast_S_S1x32x4096 : S_.BroadcastsInDim S1x32x4096 (![] : Fin 0 → Fin S1x32x4096.rank)
  reducesTo_S1x32x4096_S_d0_1_2 : S1x32x4096.ReducesTo [0, 1, 2] S_
  h_S_ : 0 < S_.numel
  bcast_S_S1x8192x4096 : S_.BroadcastsInDim S1x8192x4096 (![] : Fin 0 → Fin S1x8192x4096.rank)
  reducesTo_S1x8192x4096_S_d0_1_2 : S1x8192x4096.ReducesTo [0, 1, 2] S_

variable [Facts]

def fn_part1 {F : FTy → Type} [FloatOps F] (main_arg4 : FVec F S1x32x4096 .f32) (main_v13 : IVec S_ 1) (main_v16 : IVec S1x8192x4096 1) : IVec S_ 1 :=
  let main_c_5 : IVec S_ 1 := constantI S_ 1 1#1
  let main_v17 : IVec S_ 1 := (fun x v => Host.reduce IntOp.andi x v reducesTo_S1x8192x4096_S_d0_1_2 h_S_) main_v16 main_c_5
  let main_v18 : IVec S_ 1 := andi main_v13 main_v17
  let main_v19 : FVec F S1x32x4096 .f32 := Host.absf main_arg4
  let main_cst_6 : FVec F S_ .f32 := constant S_ .f32 0x7F800000#32
  let main_v20 : FVec F S1x32x4096 .f32 := broadcastInDim S1x32x4096 ![] bcast_S_S1x32x4096 main_cst_6
  let main_v21 : IVec S1x32x4096 1 := cmpf .olt main_v19 main_v20
  let main_c_7 : IVec S_ 1 := constantI S_ 1 1#1
  let main_v22 : IVec S_ 1 := (fun x v => Host.reduce IntOp.andi x v reducesTo_S1x32x4096_S_d0_1_2 h_S_) main_v21 main_c_7
  let main_v23 : IVec S_ 1 := andi main_v18 main_v22
  main_v23

def fn {F : FTy → Type} [FloatOps F] (main_arg0 : FVec F S1x32x4096 .f32) (main_arg1 : FVec F S1x8192x4096 .f32) (main_arg2 : FVec F S1x32x4096 .f32) (main_arg3 : FVec F S1x8192x4096 .f32) (main_arg4 : FVec F S1x32x4096 .f32) : IVec S_ 1 :=
  let main_v0 : FVec F S1x32x4096 .f32 := Host.absf main_arg0
  let main_cst : FVec F S_ .f32 := constant S_ .f32 0x7F800000#32
  let main_v1 : FVec F S1x32x4096 .f32 := broadcastInDim S1x32x4096 ![] bcast_S_S1x32x4096 main_cst
  let main_v2 : IVec S1x32x4096 1 := cmpf .olt main_v0 main_v1
  let main_c : IVec S_ 1 := constantI S_ 1 1#1
  let main_v3 : IVec S_ 1 := (fun x v => Host.reduce IntOp.andi x v reducesTo_S1x32x4096_S_d0_1_2 h_S_) main_v2 main_c
  let main_v4 : FVec F S1x8192x4096 .f32 := Host.absf main_arg1
  let main_cst_0 : FVec F S_ .f32 := constant S_ .f32 0x7F800000#32
  let main_v5 : FVec F S1x8192x4096 .f32 := broadcastInDim S1x8192x4096 ![] bcast_S_S1x8192x4096 main_cst_0
  let main_v6 : IVec S1x8192x4096 1 := cmpf .olt main_v4 main_v5
  let main_c_1 : IVec S_ 1 := constantI S_ 1 1#1
  let main_v7 : IVec S_ 1 := (fun x v => Host.reduce IntOp.andi x v reducesTo_S1x8192x4096_S_d0_1_2 h_S_) main_v6 main_c_1
  let main_v8 : IVec S_ 1 := andi main_v3 main_v7
  let main_v9 : FVec F S1x32x4096 .f32 := Host.absf main_arg2
  let main_cst_2 : FVec F S_ .f32 := constant S_ .f32 0x7F800000#32
  let main_v10 : FVec F S1x32x4096 .f32 := broadcastInDim S1x32x4096 ![] bcast_S_S1x32x4096 main_cst_2
  let main_v11 : IVec S1x32x4096 1 := cmpf .olt main_v9 main_v10
  let main_c_3 : IVec S_ 1 := constantI S_ 1 1#1
  let main_v12 : IVec S_ 1 := (fun x v => Host.reduce IntOp.andi x v reducesTo_S1x32x4096_S_d0_1_2 h_S_) main_v11 main_c_3
  let main_v13 : IVec S_ 1 := andi main_v8 main_v12
  let main_v14 : FVec F S1x8192x4096 .f32 := Host.absf main_arg3
  let main_cst_4 : FVec F S_ .f32 := constant S_ .f32 0x7F800000#32
  let main_v15 : FVec F S1x8192x4096 .f32 := broadcastInDim S1x8192x4096 ![] bcast_S_S1x8192x4096 main_cst_4
  let main_v16 : IVec S1x8192x4096 1 := cmpf .olt main_v14 main_v15
  fn_part1 (F := F) main_arg4 main_v13 main_v16
-- ==== Kernel.lean ====
abbrev S1x32x4096 : Shape := ⟨3, ![1, 32, 4096]⟩
abbrev S1x8192x4096 : Shape := ⟨3, ![1, 8192, 4096]⟩
abbrev S1x32x32x128 : Shape := ⟨4, ![1, 32, 32, 128]⟩
abbrev S1x32x128 : Shape := ⟨3, ![1, 32, 128]⟩
abbrev S1x8192x128 : Shape := ⟨3, ![1, 8192, 128]⟩
abbrev S1x1x32x128 : Shape := ⟨4, ![1, 1, 32, 128]⟩
abbrev S32x128 : Shape := ⟨2, ![32, 128]⟩
abbrev S8192x128 : Shape := ⟨2, ![8192, 128]⟩
abbrev S32x8192 : Shape := ⟨2, ![32, 8192]⟩
abbrev S32x32 : Shape := ⟨2, ![32, 32]⟩
abbrev S32 : Shape := ⟨1, ![32]⟩
abbrev S32x1 : Shape := ⟨2, ![32, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x32x4096, .f32⟩
  | .hbm, ⟨1, _⟩ => ⟨S1x8192x4096, .f32⟩
  | .hbm, ⟨2, _⟩ => ⟨S1x32x4096, .f32⟩
  | .hbm, ⟨3, _⟩ => ⟨S1x8192x4096, .f32⟩
  | .hbm, ⟨4, _⟩ => ⟨S1x32x4096, .f32⟩
  | .hbm, ⟨5, _⟩ => ⟨S1x32x32x128, .f32⟩
  | .local _ .vmem, ⟨0, _⟩ => ⟨S1x32x128, .f32⟩
  | .local _ .vmem, ⟨1, _⟩ => ⟨S1x32x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x1x32x128, .f32⟩
  | .local _ .vmem, ⟨11, _⟩ => ⟨S1x1x32x128, .f32⟩
  | _, _ => ⟨S1x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  bitsLt_bf16_f32 : FTy.bits .bf16 < FTy.bits .f32
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S32x8192_S32 : S32x8192.Reduces [1] S32
  shapeCasts_S32_S32x1 : S32.ShapeCasts S32x1
  reduces_S32x32_S32 : S32x32.Reduces [1] S32
  broadcasts_S32x1_S32x8192 : S32x1.Broadcasts S32x8192
  broadcasts_S32x1_S32x32 : S32x1.Broadcasts S32x32
  broadcasts_S32x1_S32x128 : S32x1.Broadcasts S32x128
  inb_S1x1x32x128_S1x1x32x128_0_0_0_0 : ∀ a, (![0, 0, 0, 0] : Fin 4 → Nat) a + S1x1x32x128.size a ≤ S1x1x32x128.size a
  h_S1x1x32x128 : 0 < S1x1x32x128.numel
  shapeCasts_S1x1x32x128_S32x128 : S1x1x32x128.ShapeCasts S32x128
  shapeCasts_S32x128_S1x1x32x128 : S32x128.ShapeCasts S1x1x32x128
  dot_S32x128_S8192x128_S32x8192_1_1_0_0_n_n_wf : DotDims.WF S32x128 S8192x128 S32x8192 [1] [1] [0] [0] [] []
  dot_S32x128_S32x128_S32x32_1_1_0_0_n_n_wf : DotDims.WF S32x128 S32x128 S32x32 [1] [1] [0] [0] [] []
  dot_S32x8192_S8192x128_S32x128_1_0_0_1_n_n_wf : DotDims.WF S32x8192 S8192x128 S32x128 [1] [0] [0] [1] [] []
  dot_S32x32_S32x128_S32x128_1_0_0_1_n_n_wf : DotDims.WF S32x32 S32x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S1x32x4096.size a
  hwx0_0 : ∀ i : grid0.Coords, EltTy.bits .f32 = 32 ∨ (Rect.block (s := S1x32x4096) S1x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S1x8192x4096.size a
  hwx0_1 : ∀ i : grid0.Coords, EltTy.bits .f32 = 32 ∨ (Rect.block (s := S1x8192x4096) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S1x8192x4096.size a
  hwx0_2 : ∀ i : grid0.Coords, EltTy.bits .f32 = 32 ∨ (Rect.block (s := S1x8192x4096) S1x8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S1x32x4096.size a
  hwx0_3 : ∀ i : grid0.Coords, EltTy.bits .f32 = 32 ∨ (Rect.block (s := S1x32x4096) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S1x32x4096.size a
  hwx0_4 : ∀ i : grid0.Coords, EltTy.bits .f32 = 32 ∨ (Rect.block (s := S1x32x4096) S1x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32x128.size a ≤ S1x32x32x128.size a
  hwx0_5 : ∀ i : grid0.Coords, EltTy.bits .f32 = 32 ∨ (Rect.block (s := S1x32x32x128) S1x1x32x128.size (cc0_transform_5 i) (hinb0_5 i)).WholeWords (EltTy.packing .f32)

variable [Facts₀]

def dot_S32x128_S8192x128_S32x8192_1_1_0_0_n_n : DotDims S32x128 S8192x128 S32x8192 where
  lhsContracting := [1]
  rhsContracting := [1]
  lhsNonContracting := [0]
  rhsNonContracting := [0]
  lhsBatch := []
  rhsBatch := []
  wf := dot_S32x128_S8192x128_S32x8192_1_1_0_0_n_n_wf
def dot_S32x128_S32x128_S32x32_1_1_0_0_n_n : DotDims S32x128 S32x128 S32x32 where
  lhsContracting := [1]
  rhsContracting := [1]
  lhsNonContracting := [0]
  rhsNonContracting := [0]
  lhsBatch := []
  rhsBatch := []
  wf := dot_S32x128_S32x128_S32x32_1_1_0_0_n_n_wf
def dot_S32x8192_S8192x128_S32x128_1_0_0_1_n_n : DotDims S32x8192 S8192x128 S32x128 where
  lhsContracting := [1]
  rhsContracting := [0]
  lhsNonContracting := [0]
  rhsNonContracting := [1]
  lhsBatch := []
  rhsBatch := []
  wf := dot_S32x8192_S8192x128_S32x128_1_0_0_1_n_n_wf
def dot_S32x32_S32x128_S32x128_1_0_0_1_n_n : DotDims S32x32 S32x128 S32x128 where
  lhsContracting := [1]
  rhsContracting := [0]
  lhsNonContracting := [0]
  rhsNonContracting := [1]
  lhsBatch := []
  rhsBatch := []
  wf := dot_S32x32_S32x128_S32x128_1_0_0_1_n_n_wf

abbrev win0_0 : Pipeline.Window sig grid0 :=
  Pipeline.Window.ofSpec (Memref.whole main_arg0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x32x4096 : Shape := ⟨3, ![1, 32, 4096]⟩
abbrev S1x8192x4096 : Shape := ⟨3, ![1, 8192, 4096]⟩
abbrev S1x8192x32x128 : Shape := ⟨4, ![1, 8192, 32, 128]⟩
abbrev S1x32x8192x128 : Shape := ⟨4, ![1, 32, 8192, 128]⟩
abbrev S1x32x32x128 : Shape := ⟨4, ![1, 32, 32, 128]⟩
abbrev S1x32x8224x128 : Shape := ⟨4, ![1, 32, 8224, 128]⟩
abbrev S1x32x32x8224 : Shape := ⟨4, ![1, 32, 32, 8224]⟩
abbrev S_ : Shape := ⟨0, ![]⟩
abbrev S1x32x32 : Shape := ⟨3, ![1, 32, 32]⟩
abbrev S1x32x32x1 : Shape := ⟨4, ![1, 32, 32, 1]⟩

abbrev nBuf : Space → Nat
  | .hbm => 39
  | .vmem => 0
  | .smem => 0
  | _ => 0

abbrev bufTy : (tb : Table) → Fin (tcTables nBuf tb) → BufTy
  | .hbm, ⟨0, _⟩ => ⟨S1x32x4096, .f32⟩
  | .hbm, ⟨1, _⟩ => ⟨S1x8192x4096, .f32⟩
  | .hbm, ⟨2, _⟩ => ⟨S1x32x4096, .f32⟩
  | .hbm, ⟨3, _⟩ => ⟨S1x8192x4096, .f32⟩
  | .hbm, ⟨4, _⟩ => ⟨S1x32x4096, .f32⟩
  | .hbm, ⟨5, _⟩ => ⟨S1x8192x32x128, .f32⟩
  | .hbm, ⟨6, _⟩ => ⟨S1x32x8192x128, .f32⟩
  | .hbm, ⟨7, _⟩ => ⟨S1x32x32x128, .f32⟩
  | .hbm, ⟨8, _⟩ => ⟨S1x32x32x128, .f32⟩
  | .hbm, ⟨9, _⟩ => ⟨S1x32x8224x128, .f32⟩
  | .hbm, ⟨10, _⟩ => ⟨S1x8192x32x128, .f32⟩
  | .hbm, ⟨11, _⟩ => ⟨S1x32x8192x128, .f32⟩
  | .hbm, ⟨12, _⟩ => ⟨S1x32x32x128, .f32⟩
  | .hbm, ⟨13, _⟩ => ⟨S1x32x32x128, .f32⟩
  | .hbm, ⟨14, _⟩ => ⟨S1x32x8224x128, .f32⟩
  | .hbm, ⟨15, _⟩ => ⟨S1x32x32x128, .f32⟩
  | .hbm, ⟨16, _⟩ => ⟨S1x32x32x128, .f32⟩
  | .hbm, ⟨17, _⟩ => ⟨S1x32x32x8224, .f32⟩
  | .hbm, ⟨18, _⟩ => ⟨S_, .f32⟩
  | .hbm, ⟨19, _⟩ => ⟨S1x32x32, .f32⟩
  | .hbm, ⟨20, _⟩ => ⟨S_, .f32⟩
  | .hbm, ⟨21, _⟩ => ⟨S1x32x32, .f32⟩
  | .hbm, ⟨22, _⟩ => ⟨S1x32x32, .f32⟩
  | .hbm, ⟨23, _⟩ => ⟨S1x32x32x1, .f32⟩
  | .hbm, ⟨24, _⟩ => ⟨S1x32x32x8224, .f32⟩
  | .hbm, ⟨25, _⟩ => ⟨S1x32x32x8224, .f32⟩
  | .hbm, ⟨26, _⟩ => ⟨S1x32x32x8224, .f32⟩
  | .hbm, ⟨27, _⟩ => ⟨S_, .f32⟩
  | .hbm, ⟨28, _⟩ => ⟨S1x32x32, .f32⟩
  | .hbm, ⟨29, _⟩ => ⟨S1x32x32x1, .f32⟩
  | .hbm, ⟨30, _⟩ => ⟨S1x32x32x8224, .f32⟩
  | .hbm, ⟨31, _⟩ => ⟨S1x32x32x8224, .f32⟩
  | .hbm, ⟨32, _⟩ => ⟨S1x32x32x128, .f32⟩
  | .hbm, ⟨33, _⟩ => ⟨S1x32x32x128, .f32⟩
  | .hbm, ⟨34, _⟩ => ⟨S1x32x32x128, .f32⟩
  | .hbm, ⟨35, _⟩ => ⟨S1x32x4096, .f32⟩
  | .hbm, ⟨36, _⟩ => ⟨S1x32x32x128, .f32⟩
  | .hbm, ⟨37, _⟩ => ⟨S1x32x32x128, .f32⟩
  | .hbm, ⟨38, _⟩ => ⟨S1x32x4096, .f32⟩
  | _, _ => ⟨S1x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S1x8192x4096_S1x8192x32x128 : S1x8192x4096.ShapeCasts S1x8192x32x128
  transposes_S1x8192x32x128_S1x32x8192x128_0_2_1_3 : S1x8192x32x128.Transposes [0, 2, 1, 3] S1x32x8192x128
  shapeCasts_S1x32x4096_S1x32x32x128 : S1x32x4096.ShapeCasts S1x32x32x128
  transposes_S1x32x32x128_S1x32x32x128_0_2_1_3 : S1x32x32x128.Transposes [0, 2, 1, 3] S1x32x32x128
  concatenates_S1x32x8192x128_S1x32x32x128_S1x32x8224x128_d2 : Shape.Concatenates [S1x32x8192x128, S1x32x32x128] S1x32x8224x128 2
  reducesTo_S1x32x32x8224_S1x32x32_d3 : S1x32x32x8224.ReducesTo [3] S1x32x32
  h_S_ : 0 < S_.numel
  bcast_S_S1x32x32 : S_.BroadcastsInDim S1x32x32 (![] : Fin 0 → Fin S1x32x32.rank)
  bcast_S1x32x32_S1x32x32x1_0_1_2 : S1x32x32.BroadcastsInDim S1x32x32x1 (![0, 1, 2] : Fin 3 → Fin S1x32x32x1.rank)
  bcast_S1x32x32x1_S1x32x32x8224_0_1_2_3 : S1x32x32x1.BroadcastsInDim S1x32x32x8224 (![0, 1, 2, 3] : Fin 4 → Fin S1x32x32x8224.rank)
  slices_S1x32x8224x128_S1x32x32x128_0_0_8192_0 : S1x32x8224x128.Slices ![0, 0, 8192, 0] S1x32x32x128
  shapeCasts_S1x32x32x128_S1x32x4096 : S1x32x32x128.ShapeCasts S1x32x4096
  dot_S1x32x32x128_S1x32x8224x128_S1x32x32x8224_3_3_2_2_01_01_wf : DotDims.WF S1x32x32x128 S1x32x8224x128 S1x32x32x8224 [3] [3] [2] [2] [0, 1] [0, 1]
  dot_S1x32x32x8224_S1x32x8224x128_S1x32x32x128_3_2_2_3_01_01_wf : DotDims.WF S1x32x32x8224 S1x32x8224x128 S1x32x32x128 [3] [2] [2] [3] [0, 1] [0, 1]

variable [Facts₀]

def dot_S1x32x32x128_S1x32x8224x128_S1x32x32x8224_3_3_2_2_01_01 : DotDims S1x32x32x128 S1x32x8224x128 S1x32x32x8224 where
  lhsContracting := [3]
  rhsContracting := [3]
  lhsNonContracting := [2]
  rhsNonContracting := [2]
  lhsBatch := [0, 1]
  rhsBatch := [0, 1]
  wf := dot_S1x32x32x128_S1x32x8224x128_S1x32x32x8224_3_3_2_2_01_01_wf
def dot_S1x32x32x8224_S1x32x8224x128_S1x32x32x128_3_2_2_3_01_01 : DotDims S1x32x32x8224 S1x32x8224x128 S1x32x32x128 where
  lhsContracting := [3]
  rhsContracting := [2]
  lhsNonContracting := [2]
  rhsNonContracting := [3]
  lhsBatch := [0, 1]
  rhsBatch := [0, 1]
  wf := dot_S1x32x32x8224_S1x32x8224x128_S1x32x32x128_3_2_2_3_01_01_wf

class Facts : Prop extends Facts₀ where

variable [Facts]
-- ==== Proof.Spec.lean ====
/-
  Multi-head attention over a key/value cache followed by new tokens, as mathematics.

  The arrays: queries, new keys and new values are [1, 32, 4096]; the key and value caches are [1, 8192, 4096].
  The model width 4096 is 32 heads of 128 features: feature `e` of head `h` sits in lane `h * 128 + e`.
  For head `h` and query row `r` the scores against the cache and against the new tokens are inner products over
  the head's 128 features. The result at (h, r, d) is the softmax-weighted sum of the values' feature `d` over
  all 8192 + 32 keys, with no scaling of the scores.

  Two arrangements of that one number are defined here over a row's scores and values:
  `splitAttn` keeps the cached and the new keys apart (two maxima joined by `max`, two sums of exponentials
  added, the normalisation one product with the reciprocal of the total), `joinAttn` runs over the 8224 keys
  laid end to end (one maximum, each weight the exponential divided by the total). Their equality, for real
  scores and values, is proved in the module on the algebraic law.
-/
import Idealize.ShloMosaic.PureOps.Ideal
import Idealize.ShloMosaic.Lib.ValueIdx

noncomputable section

open Idealize.ShloMosaic Idealize.ShloMosaic.ValueIdx

namespace Cert.Attn

/-- A token array: queries, new keys, new values. -/
abbrev Tok : Type := (⟨3, ![1, 32, 4096]⟩ : Shape).Idx → EReal
/-- A cache array: cached keys, cached values. -/
abbrev Cache : Type := (⟨3, ![1, 8192, 4096]⟩ : Shape).Idx → EReal
/-- The attention output, [1, heads, rows, features]. -/
abbrev Out : Type := (⟨4, ![1, 32, 32, 128]⟩ : Shape).Idx → EReal

/-- The lane of feature `e` of head `h`. -/
def lane (h : Fin 32) (e : Fin 128) : Fin 4096 :=
  ⟨h.val * 128 + e.val, by have := h.isLt; have := e.isLt; omega⟩

/-- Feature `e` of head `h` in row `r` of a token array. -/
def tokAt (X : Tok) (h r : Fin 32) (e : Fin 128) : EReal := X (ix3 0 r (lane h e))
/-- Feature `e` of head `h` in row `j` of a cache array. -/
def cacheAt (C : Cache) (h : Fin 32) (j : Fin 8192) (e : Fin 128) : EReal := C (ix3 0 j (lane h e))

/-- Score of query row `r` against cached key `j`, in head `h`. -/
def scoreC (Q : Tok) (K : Cache) (h r : Fin 32) (j : Fin 8192) : EReal :=
  ∑ e : Fin 128, tokAt Q h r e * cacheAt K h j e
/-- Score of query row `r` against new key `j`, in head `h`. -/
def scoreN (Q Kn : Tok) (h r : Fin 32) (j : Fin 32) : EReal :=
  ∑ e : Fin 128, tokAt Q h r e * tokAt Kn h j e

/-- The row maximum, the two chunks apart. -/
def maxSplit (sc : Fin 8192 → EReal) (sn : Fin 32 → EReal) : EReal :=
  max (Finset.univ.fold max ⊥ sc) (Finset.univ.fold max ⊥ sn)

/-- The softmax-weighted sum with the cached and the new keys kept apart. -/
def splitAttn (sc : Fin 8192 → EReal) (sn : Fin 32 → EReal) (vc : Fin 8192 → EReal) (vn : Fin 32 → EReal) : EReal :=
  ((∑ j, Ideal.exp (sc j - maxSplit sc sn) * vc j) + ∑ j, Ideal.exp (sn j - maxSplit sc sn) * vn j)
    * Ideal.div 1 ((∑ j, Ideal.exp (sc j - maxSplit sc sn)) + ∑ j, Ideal.exp (sn j - maxSplit sc sn))

/-- 8192 entries followed by 32. -/
def join {α : Type} (a : Fin 8192 → α) (b : Fin 32 → α) (k : Fin 8224) : α :=
  if h : k.val < 8192 then a ⟨k.val, h⟩ else b ⟨k.val - 8192, by have := k.isLt; omega⟩

/-- The row maximum over all keys, taken against `-∞` once more. -/
def maxJoin (s : Fin 8224 → EReal) : EReal := max ⊥ (Finset.univ.fold max ⊥ s)

/-- The softmax-weighted sum over all keys laid end to end. -/
def joinAttn (s v : Fin 8224 → EReal) : EReal :=
  ∑ k, Ideal.div (Ideal.exp (s k - maxJoin s)) (0 + ∑ k', Ideal.exp (s k' - maxJoin s)) * v k

/-- The attention output, chunks apart. -/
def attnSplit (Q : Tok) (Kc : Cache) (Kn : Tok) (Vc : Cache) (Vn : Tok) : Out := fun i =>
  splitAttn (scoreC Q Kc (i 1) (i 2)) (scoreN Q Kn (i 1) (i 2))
    (fun j => cacheAt Vc (i 1) j (i 3)) (fun j => tokAt Vn (i 1) j (i 3))

/-- The attention output, keys end to end. -/
def attnJoin (Q : Tok) (Kc : Cache) (Kn : Tok) (Vc : Cache) (Vn : Tok) : Out := fun i =>
  joinAttn (join (scoreC Q Kc (i 1) (i 2)) (scoreN Q Kn (i 1) (i 2)))
    (join (fun j => cacheAt Vc (i 1) j (i 3)) (fun j => tokAt Vn (i 1) j (i 3)))

/-- The f32 pattern of `-∞` is the bottom of the extended reals. -/
theorem ofBits_negInf : Ideal.ofBits .f32 0xFF800000#32 = (⊥ : EReal) := by
  simp [Ideal.ofBits, Ideal.ieee]

/-- The f32 pattern of `1.0` is the real one. -/
theorem ofBits_one : Ideal.ofBits .f32 0x3F800000#32 = (1 : EReal) := by
  simp [Ideal.ofBits, Ideal.ieee]
  rw [← EReal.coe_mul, ← EReal.coe_one]
  congr 1
  norm_num

/-- An array all of whose entries are real numbers. -/
def IsReal {ι : Type} (X : ι → EReal) : Prop := ∀ i, ∃ x : ℝ, X i = (x : EReal)

end Cert.Attn

end
-- ==== Proof.Law.lean ====
import proofs.«404999_j70781061038436_3_alg».proof.Proof.Spec
import Mathlib.Data.EReal.Basic
import Mathlib.Data.EReal.Operations
import Mathlib.Algebra.BigOperators.Fin
import Mathlib.Algebra.Order.BigOperators.Group.Finset
import Mathlib.Data.Finset.Lattice.Fold
import Mathlib.Analysis.SpecialFunctions.Exp

/-
  The algebraic law of the two-chunk softmax.

  For one output entry the keys are 8192 cached ones followed by 32 new ones. With real scores and
  real values, every quantity in sight is a real number: the maximum of finitely many reals over a
  nonempty index set is one of them, the exponentials of the shifted scores are positive reals, and
  their total is a positive real. So the normalisation "times the reciprocal of the total" and the
  normalisation "each weight divided by the total" are the same real number, by distributing the
  reciprocal over the finite sum. The only other ingredient is that a sum (or a maximum) over the
  8224 keys laid end to end is the sum (or the maximum) of the two chunks' sums (maxima).
-/

noncomputable section

open Idealize.ShloMosaic Idealize.ShloMosaic.ValueIdx

namespace Cert.Attn

/-! ### Finite sums of reals inside the extended reals -/

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ### The two chunks laid end to end -/

theorem join_castAdd {α : Type} (a : Fin 8192 → α) (b : Fin 32 → α) (j : Fin 8192) :
    join a b (Fin.castAdd 32 j) = a j := by
  have h : (Fin.castAdd 32 j).val < 8192 := j.isLt
  unfold join
  rw [dif_pos h]
  rfl

theorem join_natAdd {α : Type} (a : Fin 8192 → α) (b : Fin 32 → α) (j : Fin 32) :
    join a b (Fin.natAdd 8192 j) = b j := by
  have hv : (Fin.natAdd 8192 j).val = 8192 + j.val := Fin.coe_natAdd 8192 j
  have h : ¬ (Fin.natAdd 8192 j).val < 8192 := by omega
  unfold join
  rw [dif_neg h]
  exact congrArg b (Fin.ext (by show (Fin.natAdd 8192 j).val - 8192 = j.val; omega))

/-- A sum over the 8224 keys is the cached chunk's sum plus the new chunk's sum. -/
theorem sum_split {β : Type} [AddCommMonoid β] (g : Fin 8224 → β) :
    ∑ k, g k = (∑ j : Fin 8192, g (Fin.castAdd 32 j)) + ∑ j : Fin 32, g (Fin.natAdd 8192 j) :=
  Fin.sum_univ_add (a := 8192) (b := 32) g

/-- Every entry of the joined row is an entry of one of the chunks. -/
theorem join_cases {α : Type} (a : Fin 8192 → α) (b : Fin 32 → α) (k : Fin 8224) :
    (∃ j, join a b k = a j) ∨ (∃ j, join a b k = b j) := by
  unfold join
  by_cases h : k.val < 8192
  · left; exact ⟨⟨k.val, h⟩, by rw [dif_pos h]⟩
  · right; exact ⟨⟨k.val - 8192, by have := k.isLt; omega⟩, by rw [dif_neg h]⟩

theorem isReal_join (a : Fin 8192 → EReal) (b : Fin 32 → EReal) (ha : IsReal a) (hb : IsReal b) :
    IsReal (join a b) := by
  intro k
  rcases join_cases a b k with ⟨j, hj⟩ | ⟨j, hj⟩
  · rw [hj]; exact ha j
  · rw [hj]; exact hb j

/-- The running maximum from the bottom element is the finite supremum. -/
theorem fold_max_eq_sup {ι : Type} (s : Finset ι) (f : ι → EReal) :
    s.fold max ⊥ f = s.sup f := rfl

/-- The maximum over the joined row is the larger of the two chunks' maxima. -/
theorem fold_max_join (a : Fin 8192 → EReal) (b : Fin 32 → EReal) :
    Finset.univ.fold max ⊥ (join a b)
      = max (Finset.univ.fold max ⊥ a) (Finset.univ.fold max ⊥ b) := by
  rw [fold_max_eq_sup, fold_max_eq_sup, fold_max_eq_sup]
  apply le_antisymm
  · rw [Finset.sup_le_iff]
    intro k _
    rcases join_cases a b k with ⟨j, hj⟩ | ⟨j, hj⟩
    · rw [hj]; exact le_trans (Finset.le_sup (Finset.mem_univ j)) (le_max_left _ _)
    · rw [hj]; exact le_trans (Finset.le_sup (Finset.mem_univ j)) (le_max_right _ _)
  · apply max_le
    · rw [Finset.sup_le_iff]
      intro j _
      rw [← join_castAdd a b j]
      exact Finset.le_sup (Finset.mem_univ _)
    · rw [Finset.sup_le_iff]
      intro j _
      rw [← join_natAdd a b j]
      exact Finset.le_sup (Finset.mem_univ _)

/-! ### The law over any nonempty finite set of keys -/

/-- With real scores, real values and a real shift: the weighted sum times the reciprocal of the
    total equals the sum of the values, each weighted by its exponential over the total. -/
theorem softmax_core {ι : Type} [Fintype ι] [Nonempty ι] (f w : ι → ℝ) (m : ℝ) :
    (∑ k, Ideal.exp ((f k : EReal) - (m : EReal)) * (w k : EReal))
        * Ideal.div 1 (∑ k, Ideal.exp ((f k : EReal) - (m : EReal)))
      = ∑ k, Ideal.div (Ideal.exp ((f k : EReal) - (m : EReal)))
              (0 + ∑ k', Ideal.exp ((f k' : EReal) - (m : EReal))) * (w k : EReal) := by
  have hexp : ∀ k, Ideal.exp ((f k : EReal) - (m : EReal)) = ((Real.exp (f k - m) : ℝ) : EReal) := by
    intro k
    rw [← EReal.coe_sub]
    rfl
  simp only [hexp]
  have hLpos : 0 < ∑ k, Real.exp (f k - m) :=
    Finset.sum_pos (fun k _ => Real.exp_pos _) Finset.univ_nonempty
  rw [coe_sum, zero_add]
  simp only [Ideal.div_coe hLpos.ne', one_mul, ← EReal.coe_mul]
  rw [coe_sum, coe_sum, ← EReal.coe_mul]
  congr 1
  rw [Finset.sum_mul]
  apply Finset.sum_congr rfl
  intro k _
  ring

/-! ### One row -/

/-- For real scores and values, keeping the chunks apart or laying them end to end gives the same
    softmax-weighted sum. -/
theorem splitAttn_eq_joinAttn (sc : Fin 8192 → EReal) (sn : Fin 32 → EReal)
    (vc : Fin 8192 → EReal) (vn : Fin 32 → EReal)
    (hsc : IsReal sc) (hsn : IsReal sn) (hvc : IsReal vc) (hvn : IsReal vn) :
    splitAttn sc sn vc vn = joinAttn (join sc sn) (join vc vn) := by
  -- the shift is the same on both sides: the maximum over all keys
  have hM : maxSplit sc sn = maxJoin (join sc sn) := by
    unfold maxSplit maxJoin
    rw [fold_max_join, bot_sup_eq]
  -- the two chunks' sums are one sum over the joined row
  have hnum : (∑ j, Ideal.exp (sc j - maxSplit sc sn) * vc j)
        + ∑ j, Ideal.exp (sn j - maxSplit sc sn) * vn j
      = ∑ k, Ideal.exp (join sc sn k - maxSplit sc sn) * join vc vn k := by
    rw [sum_split]
    simp only [join_castAdd, join_natAdd]
  have hden : (∑ j, Ideal.exp (sc j - maxSplit sc sn))
        + ∑ j, Ideal.exp (sn j - maxSplit sc sn)
      = ∑ k, Ideal.exp (join sc sn k - maxSplit sc sn) := by
    rw [sum_split]
    simp only [join_castAdd, join_natAdd]
  unfold splitAttn joinAttn
  rw [hnum, hden, hM]
  -- real witnesses for the joined scores, the joined values and the maximum
  obtain ⟨f, hf⟩ : ∃ f : Fin 8224 → ℝ, ∀ k, join sc sn k = (f k : EReal) := by
    choose f hf using isReal_join sc sn hsc hsn
    exact ⟨f, hf⟩
  obtain ⟨w, hw⟩ : ∃ w : Fin 8224 → ℝ, ∀ k, join vc vn k = (w k : EReal) := by
    choose w hw using isReal_join vc vn hvc hvn
    exact ⟨w, hw⟩
  obtain ⟨m, hm⟩ : ∃ m : ℝ, maxJoin (join sc sn) = (m : EReal) := by
    unfold maxJoin
    rw [bot_sup_eq, fold_max_eq_sup]
    obtain ⟨i, _, hi⟩ := Finset.exists_mem_eq_sup (Finset.univ : Finset (Fin 8224))
      ⟨⟨0, by norm_num⟩, Finset.mem_univ _⟩ (join sc sn)
    exact ⟨f i, by rw [hi, hf i]⟩
  rw [hm]
  simp only [hf, hw]
  haveI : Nonempty (Fin 8224) := ⟨⟨0, by norm_num⟩⟩
  exact softmax_core f w m

/-! ### Scores and rows of real arrays are real -/

theorem isReal_scoreC (Q : Tok) (K : Cache) (hQ : IsReal Q) (hK : IsReal K) (h r : Fin 32) :
    IsReal (scoreC Q K h r) := by
  choose q hq using hQ
  choose k hk using hK
  intro j
  refine ⟨∑ e : Fin 128, q (ix3 0 r (lane h e)) * k (ix3 0 j (lane h e)), ?_⟩
  unfold scoreC tokAt cacheAt
  simp only [hq, hk, ← EReal.coe_mul]
  exact coe_sum _ _

theorem isReal_scoreN (Q Kn : Tok) (hQ : IsReal Q) (hK : IsReal Kn) (h r : Fin 32) :
    IsReal (scoreN Q Kn h r) := by
  choose q hq using hQ
  choose k hk using hK
  intro j
  refine ⟨∑ e : Fin 128, q (ix3 0 r (lane h e)) * k (ix3 0 j (lane h e)), ?_⟩
  unfold scoreN tokAt
  simp only [hq, hk, ← EReal.coe_mul]
  exact coe_sum _ _

/-! ### The whole output -/

theorem attnSplit_eq_attnJoin (Q : Tok) (Kc : Cache) (Kn : Tok) (Vc : Cache) (Vn : Tok)
    (hQ : IsReal Q) (hKc : IsReal Kc) (hKn : IsReal Kn) (hVc : IsReal Vc) (hVn : IsReal Vn) :
    attnSplit Q Kc Kn Vc Vn = attnJoin Q Kc Kn Vc Vn := by
  funext i
  unfold attnSplit attnJoin
  exact splitAttn_eq_joinAttn _ _ _ _
    (isReal_scoreC Q Kc hQ hKc (i 1) (i 2)) (isReal_scoreN Q Kn hQ hKn (i 1) (i 2))
    (fun j => hVc _) (fun j => hVn _)

end Cert.Attn

end
-- ==== Proof.KernelBlock.lean ====
/-
  The attention kernel's body at one output entry.

  The body sees one head: a block of queries [1, 32, 128], blocks of cached keys and values [1, 8192, 128], and blocks
  of new keys and values [1, 32, 128]. It forms the scores of the 32 query rows against the 8192 cached and the 32 new
  keys (inner products over the 128 features), takes each row's maximum as the larger of the two chunks' maxima,
  exponentiates each score less that maximum, adds the two chunks' sums of weights and inverts the total, and multiplies
  the sum of the two weighted sums of the values by that reciprocal. Read at row r and feature d this is `splitAttn` of
  the row's two score vectors and the two value columns. Narrowing to bf16 changes nothing at the ideal values.
-/
import proofs.«404999_j70781061038436_3_alg».proof.Proof.Spec
import proofs.«404999_j70781061038436_3_alg».proof.Proof.Gen.KernelIdeal.Frame
import Idealize.ShloMosaic.Lib.Pipeline.Value
import Idealize.ShloMosaic.PureOps.Ideal.Laws

noncomputable section

open Idealize.ShloMosaic Idealize.ShloMosaic.ValueIdx

namespace Cert.Attn.Ker

open Cert.KernelIdeal Cert.KernelIdeal.Gen

/-- The offsets of a rectangle that starts at the origin, rank three and rank four. -/
theorem zero3 : (![0, 0, 0] : Fin 3 → Nat) = fun _ => 0 :=
  funext fun a => by match a with | ⟨0, _⟩ => rfl | ⟨1, _⟩ => rfl | ⟨2, _⟩ => rfl

theorem zero4 : (![0, 0, 0, 0] : Fin 4 → Nat) = fun _ => 0 :=
  funext fun a => by match a with | ⟨0, _⟩ => rfl | ⟨1, _⟩ => rfl | ⟨2, _⟩ => rfl | ⟨3, _⟩ => rfl

/-! ## The blocks without their leading unit axis

A block [1, n, 128] viewed as [n, 128] (and then narrowed to bf16, which changes nothing here) has entry (0, j, e) at (j, e). -/

theorem pay2_at (v0 : Vec Ideal S1x32x128 .f32) (r : Fin 32) (e : Fin 128) :
    k0_pay2 v0 (ix2 r e) = v0 (ix3 0 r e) := by
  unfold k0_pay2
  show shapeCast S32x128 v0 shapeCasts_S1x32x128_S32x128 (ix2 r e) = _
  refine shapeCast_apply _ _ (ix2 r e) (ix3 0 r e) ?_
  rw [Shape.rowMajor_val_three, Shape.rowMajor_val_two]
  show (0 * 32 + r.val) * 128 + e.val = r.val * 128 + e.val
  omega

theorem pay3_at (v6 : Vec Ideal S1x8192x128 .f32) (j : Fin 8192) (d : Fin 128) :
    k0_pay3 v6 (ix2 j d) = v6 (ix3 0 j d) := by
  unfold k0_pay3
  show shapeCast S8192x128 v6 shapeCasts_S1x8192x128_S8192x128 (ix2 j d) = _
  refine shapeCast_apply _ _ (ix2 j d) (ix3 0 j d) ?_
  rw [Shape.rowMajor_val_three, Shape.rowMajor_val_two]
  show (0 * 8192 + j.val) * 128 + d.val = j.val * 128 + d.val
  omega

theorem pay4_at (v12 : Vec Ideal S1x32x128 .f32) (j : Fin 32) (d : Fin 128) :
    k0_pay4 v12 (ix2 j d) = v12 (ix3 0 j d) := by
  unfold k0_pay4
  show shapeCast S32x128 v12 shapeCasts_S1x32x128_S32x128 (ix2 j d) = _
  refine shapeCast_apply _ _ (ix2 j d) (ix3 0 j d) ?_
  rw [Shape.rowMajor_val_three, Shape.rowMajor_val_two]
  show (0 * 32 + j.val) * 128 + d.val = j.val * 128 + d.val
  omega

/-! ## Products contracting the feature axis of both operands

A [m, 128] array against an [n, 128] array into [m, n]: entry (r, j) is the sum over the 128 features of the products of
rows r and j. First the operands' indices at an output index and a position of the contraction, axis by axis. -/

theorem lhs_qk_0 (i : S32x8192.Idx) (q : dot_S32x128_S8192x128_S32x8192_1_1_0_0_n_n.contr.Idx) :
    (dot_S32x128_S8192x128_S32x8192_1_1_0_0_n_n.lhsIdx i q 0).val = (i 0).val := by
  unfold DotDims.lhsIdx
  rw [dif_neg (show ¬(0 : Fin S32x128.rank) ∈ dot_S32x128_S8192x128_S32x8192_1_1_0_0_n_n.lhsBatch by decide), dif_pos (show (0 : Fin S32x128.rank) ∈ dot_S32x128_S8192x128_S32x8192_1_1_0_0_n_n.lhsNonContracting by decide)]
  rfl
theorem lhs_qk_1 (i : S32x8192.Idx) (q : dot_S32x128_S8192x128_S32x8192_1_1_0_0_n_n.contr.Idx) :
    (dot_S32x128_S8192x128_S32x8192_1_1_0_0_n_n.lhsIdx i q 1).val = (q ⟨0, by decide⟩).val :=
  dot_S32x128_S8192x128_S32x8192_1_1_0_0_n_n.lhsIdx_val_of_single rfl i q
theorem rhs_qk_0 (i : S32x8192.Idx) (q : dot_S32x128_S8192x128_S32x8192_1_1_0_0_n_n.contr.Idx) :
    (dot_S32x128_S8192x128_S32x8192_1_1_0_0_n_n.rhsIdx i q 0).val = (i 1).val := by
  unfold DotDims.rhsIdx
  rw [dif_neg (show ¬(0 : Fin S8192x128.rank) ∈ dot_S32x128_S8192x128_S32x8192_1_1_0_0_n_n.rhsBatch by decide), dif_pos (show (0 : Fin S8192x128.rank) ∈ dot_S32x128_S8192x128_S32x8192_1_1_0_0_n_n.rhsNonContracting by decide)]
  rfl
theorem rhs_qk_1 (i : S32x8192.Idx) (q : dot_S32x128_S8192x128_S32x8192_1_1_0_0_n_n.contr.Idx) :
    (dot_S32x128_S8192x128_S32x8192_1_1_0_0_n_n.rhsIdx i q 1).val = (q ⟨0, by decide⟩).val :=
  dot_S32x128_S8192x128_S32x8192_1_1_0_0_n_n.rhsIdx_val_of_single rfl i q

theorem qk_apply (a : FVec Ideal S32x128 .bf16) (b : FVec Ideal S8192x128 .bf16) (r : Fin 32) (j : Fin 8192) :
    matmul dot_S32x128_S8192x128_S32x8192_1_1_0_0_n_n none a b (constant (F := Ideal) S32x8192 .f32 0x00000000#32) (ix2 r j)
      = ∑ e : Fin 128, a (ix2 r e) * b (ix2 j e) := by
  refine (Ideal.matmul_constant_zero_apply dot_S32x128_S8192x128_S32x8192_1_1_0_0_n_n none a b (ix2 r j)).trans ?_
  rw [← Equiv.sum_comp (contrEquiv1 dot_S32x128_S8192x128_S32x8192_1_1_0_0_n_n 128 rfl rfl).symm]
  refine Finset.sum_congr rfl fun k _ => ?_
  have hk := contrEquiv1_symm_val dot_S32x128_S8192x128_S32x8192_1_1_0_0_n_n 128 rfl rfl k
  have el : dot_S32x128_S8192x128_S32x8192_1_1_0_0_n_n.lhsIdx (ix2 r j) ((contrEquiv1 dot_S32x128_S8192x128_S32x8192_1_1_0_0_n_n 128 rfl rfl).symm k) = ix2 r k := funext fun c => Fin.ext (by
    match c with
    | ⟨0, _⟩ => exact lhs_qk_0 _ _
    | ⟨1, _⟩ => exact (lhs_qk_1 _ _).trans hk)
  have er : dot_S32x128_S8192x128_S32x8192_1_1_0_0_n_n.rhsIdx (ix2 r j) ((contrEquiv1 dot_S32x128_S8192x128_S32x8192_1_1_0_0_n_n 128 rfl rfl).symm k) = ix2 j k := funext fun c => Fin.ext (by
    match c with
    | ⟨0, _⟩ => exact rhs_qk_0 _ _
    | ⟨1, _⟩ => exact (rhs_qk_1 _ _).trans hk)
  rw [el, er]

theorem lhs_qn_0 (i : S32x32.Idx) (q : dot_S32x128_S32x128_S32x32_1_1_0_0_n_n.contr.Idx) :
    (dot_S32x128_S32x128_S32x32_1_1_0_0_n_n.lhsIdx i q 0).val = (i 0).val := by
  unfold DotDims.lhsIdx
  rw [dif_neg (show ¬(0 : Fin S32x128.rank) ∈ dot_S32x128_S32x128_S32x32_1_1_0_0_n_n.lhsBatch by decide), dif_pos (show (0 : Fin S32x128.rank) ∈ dot_S32x128_S32x128_S32x32_1_1_0_0_n_n.lhsNonContracting by decide)]
  rfl
theorem lhs_qn_1 (i : S32x32.Idx) (q : dot_S32x128_S32x128_S32x32_1_1_0_0_n_n.contr.Idx) :
    (dot_S32x128_S32x128_S32x32_1_1_0_0_n_n.lhsIdx i q 1).val = (q ⟨0, by decide⟩).val :=
  dot_S32x128_S32x128_S32x32_1_1_0_0_n_n.lhsIdx_val_of_single rfl i q
theorem rhs_qn_0 (i : S32x32.Idx) (q : dot_S32x128_S32x128_S32x32_1_1_0_0_n_n.contr.Idx) :
    (dot_S32x128_S32x128_S32x32_1_1_0_0_n_n.rhsIdx i q 0).val = (i 1).val := by
  unfold DotDims.rhsIdx
  rw [dif_neg (show ¬(0 : Fin S32x128.rank) ∈ dot_S32x128_S32x128_S32x32_1_1_0_0_n_n.rhsBatch by decide), dif_pos (show (0 : Fin S32x128.rank) ∈ dot_S32x128_S32x128_S32x32_1_1_0_0_n_n.rhsNonContracting by decide)]
  rfl
theorem rhs_qn_1 (i : S32x32.Idx) (q : dot_S32x128_S32x128_S32x32_1_1_0_0_n_n.contr.Idx) :
    (dot_S32x128_S32x128_S32x32_1_1_0_0_n_n.rhsIdx i q 1).val = (q ⟨0, by decide⟩).val :=
  dot_S32x128_S32x128_S32x32_1_1_0_0_n_n.rhsIdx_val_of_single rfl i q

theorem qn_apply (a : FVec Ideal S32x128 .bf16) (b : FVec Ideal S32x128 .bf16) (r : Fin 32) (j : Fin 32) :
    matmul dot_S32x128_S32x128_S32x32_1_1_0_0_n_n none a b (constant (F := Ideal) S32x32 .f32 0x00000000#32) (ix2 r j)
      = ∑ e : Fin 128, a (ix2 r e) * b (ix2 j e) := by
  refine (Ideal.matmul_constant_zero_apply dot_S32x128_S32x128_S32x32_1_1_0_0_n_n none a b (ix2 r j)).trans ?_
  rw [← Equiv.sum_comp (contrEquiv1 dot_S32x128_S32x128_S32x32_1_1_0_0_n_n 128 rfl rfl).symm]
  refine Finset.sum_congr rfl fun k _ => ?_
  have hk := contrEquiv1_symm_val dot_S32x128_S32x128_S32x32_1_1_0_0_n_n 128 rfl rfl k
  have el : dot_S32x128_S32x128_S32x32_1_1_0_0_n_n.lhsIdx (ix2 r j) ((contrEquiv1 dot_S32x128_S32x128_S32x32_1_1_0_0_n_n 128 rfl rfl).symm k) = ix2 r k := funext fun c => Fin.ext (by
    match c with
    | ⟨0, _⟩ => exact lhs_qn_0 _ _
    | ⟨1, _⟩ => exact (lhs_qn_1 _ _).trans hk)
  have er : dot_S32x128_S32x128_S32x32_1_1_0_0_n_n.rhsIdx (ix2 r j) ((contrEquiv1 dot_S32x128_S32x128_S32x32_1_1_0_0_n_n 128 rfl rfl).symm k) = ix2 j k := funext fun c => Fin.ext (by
    match c with
    | ⟨0, _⟩ => exact rhs_qn_0 _ _
    | ⟨1, _⟩ => exact (rhs_qn_1 _ _).trans hk)
  rw [el, er]

/-! ## The scores

Row r of the queries against row j of the keys: the inner product over the 128 features. -/

theorem pay5_at (v0 : Vec Ideal S1x32x128 .f32) (v3 : Vec Ideal S1x8192x128 .f32) (r : Fin 32) (j : Fin 8192) :
    k0_pay5 v0 v3 (ix2 r j) = ∑ e : Fin 128, v0 (ix3 0 r e) * v3 (ix3 0 j e) := by
  unfold k0_pay5
  refine (qk_apply _ _ r j).trans ?_
  refine Finset.sum_congr rfl fun e _ => ?_
  exact congrArg₂ (· * ·) (pay2_at v0 r e) (pay3_at v3 j e)

theorem pay6_at (v0 v9 : Vec Ideal S1x32x128 .f32) (r : Fin 32) (j : Fin 32) :
    k0_pay6 v0 v9 (ix2 r j) = ∑ e : Fin 128, v0 (ix3 0 r e) * v9 (ix3 0 j e) := by
  unfold k0_pay6
  refine (qn_apply _ _ r j).trans ?_
  refine Finset.sum_congr rfl fun e _ => ?_
  exact congrArg₂ (· * ·) (pay2_at v0 r e) (pay2_at v9 j e)

/-! ## Row reductions and columns

A vector [32] viewed as a column [32, 1]; the reduction of row r of a [32, n] array over its n entries; a column spread over n entries. -/

theorem col_at (v : FVec Ideal S32 .f32) (r : Fin 32) :
    shapeCast S32x1 v shapeCasts_S32_S32x1 (ix2 r 0) = v (ix1 r) := by
  refine shapeCast_apply _ _ (ix2 r 0) (ix1 r) ?_
  rw [Shape.rowMajor_val_one, Shape.rowMajor_val_two]
  show r.val = r.val * 1 + 0
  omega

theorem lift_c (r : Fin 32) (j : Fin 8192) : reduces_S32x8192_S32.lift (ix1 r) j = ix2 r j :=
  funext fun c => Fin.ext (by match c with | ⟨0, _⟩ => rfl | ⟨1, _⟩ => rfl)

theorem lift_n (r : Fin 32) (j : Fin 32) : reduces_S32x32_S32.lift (ix1 r) j = ix2 r j :=
  funext fun c => Fin.ext (by match c with | ⟨0, _⟩ => rfl | ⟨1, _⟩ => rfl)

theorem rowmax_c (src : FVec Ideal S32x8192 .f32) (r : Fin 32) :
    multiReduction (F := Ideal) .maximumf [1] S32 src 0xFF800000#32 reduces_S32x8192_S32 (.inl rfl) rfl (ix1 r)
      = Finset.univ.fold max ⊥ (fun j : Fin 8192 => src (ix2 r j)) := by
  refine (Ideal.multiReduction_maximumf_single src 0xFF800000#32 reduces_S32x8192_S32 (.inl rfl) rfl (ix1 r)).trans ?_
  show Finset.fold max (Ideal.ofBits .f32 0xFF800000#32) (fun j : Fin 8192 => src (reduces_S32x8192_S32.lift (ix1 r) j)) Finset.univ = _
  rw [ofBits_negInf]
  simp only [lift_c]

theorem rowmax_n (src : FVec Ideal S32x32 .f32) (r : Fin 32) :
    multiReduction (F := Ideal) .maximumf [1] S32 src 0xFF800000#32 reduces_S32x32_S32 (.inl rfl) rfl (ix1 r)
      = Finset.univ.fold max ⊥ (fun j : Fin 32 => src (ix2 r j)) := by
  refine (Ideal.multiReduction_maximumf_single src 0xFF800000#32 reduces_S32x32_S32 (.inl rfl) rfl (ix1 r)).trans ?_
  show Finset.fold max (Ideal.ofBits .f32 0xFF800000#32) (fun j : Fin 32 => src (reduces_S32x32_S32.lift (ix1 r) j)) Finset.univ = _
  rw [ofBits_negInf]
  simp only [lift_n]

theorem pay7_at (v0 : Vec Ideal S1x32x128 .f32) (v3 : Vec Ideal S1x8192x128 .f32) (v9 : Vec Ideal S1x32x128 .f32) (r : Fin 32) :
    k0_pay7 v0 v3 v9 (ix2 r 0)
      = maxSplit (fun j => ∑ e : Fin 128, v0 (ix3 0 r e) * v3 (ix3 0 j e)) (fun j => ∑ e : Fin 128, v0 (ix3 0 r e) * v9 (ix3 0 j e)) := by
  unfold k0_pay7 maxSplit
  refine (maximumf_apply _ _ _).trans ?_
  rw [col_at, col_at, rowmax_c, rowmax_n]
  simp only [pay5_at, pay6_at]

theorem spread_c (v : FVec Ideal S32x1 .f32) (r : Fin 32) (j : Fin 8192) :
    broadcastTo S32x8192 v broadcasts_S32x1_S32x8192 (ix2 r j) = v (ix2 r 0) :=
  broadcastTo_apply v _ (ix2 r j) (ix2 r 0) fun a => by match a with | ⟨0, _⟩ => rfl | ⟨1, _⟩ => rfl

theorem spread_n (v : FVec Ideal S32x1 .f32) (r : Fin 32) (j : Fin 32) :
    broadcastTo S32x32 v broadcasts_S32x1_S32x32 (ix2 r j) = v (ix2 r 0) :=
  broadcastTo_apply v _ (ix2 r j) (ix2 r 0) fun a => by match a with | ⟨0, _⟩ => rfl | ⟨1, _⟩ => rfl

theorem spread_d (v : FVec Ideal S32x1 .f32) (r : Fin 32) (d : Fin 128) :
    broadcastTo S32x128 v broadcasts_S32x1_S32x128 (ix2 r d) = v (ix2 r 0) :=
  broadcastTo_apply v _ (ix2 r d) (ix2 r 0) fun a => by match a with | ⟨0, _⟩ => rfl | ⟨1, _⟩ => rfl

/-! ## The weights

Each score less the row's maximum, exponentiated. -/

theorem pay8_at (v0 : Vec Ideal S1x32x128 .f32) (v3 : Vec Ideal S1x8192x128 .f32) (v9 : Vec Ideal S1x32x128 .f32)
    (r : Fin 32) (j : Fin 8192) :
    k0_pay8 v0 v3 v9 (ix2 r j)
      = Ideal.exp ((∑ e : Fin 128, v0 (ix3 0 r e) * v3 (ix3 0 j e))
          - maxSplit (fun j => ∑ e : Fin 128, v0 (ix3 0 r e) * v3 (ix3 0 j e)) (fun j => ∑ e : Fin 128, v0 (ix3 0 r e) * v9 (ix3 0 j e))) := by
  unfold k0_pay8
  show Ideal.exp (k0_pay5 v0 v3 (ix2 r j) - broadcastTo S32x8192 (k0_pay7 v0 v3 v9) broadcasts_S32x1_S32x8192 (ix2 r j)) = _
  rw [spread_c, pay5_at, pay7_at]

theorem pay9_at (v0 : Vec Ideal S1x32x128 .f32) (v3 : Vec Ideal S1x8192x128 .f32) (v9 : Vec Ideal S1x32x128 .f32)
    (r : Fin 32) (j : Fin 32) :
    k0_pay9 v0 v3 v9 (ix2 r j)
      = Ideal.exp ((∑ e : Fin 128, v0 (ix3 0 r e) * v9 (ix3 0 j e))
          - maxSplit (fun j => ∑ e : Fin 128, v0 (ix3 0 r e) * v3 (ix3 0 j e)) (fun j => ∑ e : Fin 128, v0 (ix3 0 r e) * v9 (ix3 0 j e))) := by
  unfold k0_pay9
  show Ideal.exp (k0_pay6 v0 v9 (ix2 r j) - broadcastTo S32x32 (k0_pay7 v0 v3 v9) broadcasts_S32x1_S32x32 (ix2 r j)) = _
  rw [spread_n, pay6_at, pay7_at]

theorem pay11_at (v0 : Vec Ideal S1x32x128 .f32) (v3 : Vec Ideal S1x8192x128 .f32) (v9 : Vec Ideal S1x32x128 .f32)
    (r : Fin 32) (j : Fin 8192) :
    k0_pay11 v0 v3 v9 (ix2 r j) = k0_pay8 v0 v3 v9 (ix2 r j) := by
  unfold k0_pay11
  rfl

/-! ## The normaliser

One over the two sums of weights added. -/

theorem rowsum_c (src : FVec Ideal S32x8192 .f32) (r : Fin 32) :
    multiReduction (F := Ideal) .add [1] S32 src 0x00000000#32 reduces_S32x8192_S32 (.inl rfl) rfl (ix1 r)
      = ∑ j : Fin 8192, src (ix2 r j) := by
  refine (Ideal.multiReduction_add_single src 0x00000000#32 reduces_S32x8192_S32 (.inl rfl) rfl (ix1 r)).trans ?_
  show ∑ j : Fin 8192, src (reduces_S32x8192_S32.lift (ix1 r) j) = _
  simp only [lift_c]

theorem rowsum_n (src : FVec Ideal S32x32 .f32) (r : Fin 32) :
    multiReduction (F := Ideal) .add [1] S32 src 0x00000000#32 reduces_S32x32_S32 (.inl rfl) rfl (ix1 r)
      = ∑ j : Fin 32, src (ix2 r j) := by
  refine (Ideal.multiReduction_add_single src 0x00000000#32 reduces_S32x32_S32 (.inl rfl) rfl (ix1 r)).trans ?_
  show ∑ j : Fin 32, src (reduces_S32x32_S32.lift (ix1 r) j) = _
  simp only [lift_n]

theorem pay10_at (v0 : Vec Ideal S1x32x128 .f32) (v3 : Vec Ideal S1x8192x128 .f32) (v9 : Vec Ideal S1x32x128 .f32)
    (r : Fin 32) :
    k0_pay10 v0 v3 v9 (ix2 r 0)
      = Ideal.div 1 ((∑ j : Fin 8192, k0_pay8 v0 v3 v9 (ix2 r j)) + ∑ j : Fin 32, k0_pay9 v0 v3 v9 (ix2 r j)) := by
  unfold k0_pay10
  show Ideal.div (Ideal.ofBits .f32 0x3F800000#32)
      (shapeCast S32x1 (multiReduction (F := Ideal) .add [1] S32 (k0_pay8 v0 v3 v9) 0x00000000#32 reduces_S32x8192_S32 (.inl rfl) rfl) shapeCasts_S32_S32x1 (ix2 r 0)
        + shapeCast S32x1 (multiReduction (F := Ideal) .add [1] S32 (k0_pay9 v0 v3 v9) 0x00000000#32 reduces_S32x32_S32 (.inl rfl) rfl) shapeCasts_S32_S32x1 (ix2 r 0)) = _
  rw [ofBits_one, col_at, col_at, rowsum_c, rowsum_n]

/-! ## The weighted sums of the values

Row r of the weights against column d of the values, summed over the keys. -/

theorem lhs_pv_0 (i : S32x128.Idx) (q : dot_S32x8192_S8192x128_S32x128_1_0_0_1_n_n.contr.Idx) :
    (dot_S32x8192_S8192x128_S32x128_1_0_0_1_n_n.lhsIdx i q 0).val = (i 0).val := by
  unfold DotDims.lhsIdx
  rw [dif_neg (show ¬(0 : Fin S32x8192.rank) ∈ dot_S32x8192_S8192x128_S32x128_1_0_0_1_n_n.lhsBatch by decide), dif_pos (show (0 : Fin S32x8192.rank) ∈ dot_S32x8192_S8192x128_S32x128_1_0_0_1_n_n.lhsNonContracting by decide)]
  rfl
theorem lhs_pv_1 (i : S32x128.Idx) (q : dot_S32x8192_S8192x128_S32x128_1_0_0_1_n_n.contr.Idx) :
    (dot_S32x8192_S8192x128_S32x128_1_0_0_1_n_n.lhsIdx i q 1).val = (q ⟨0, by decide⟩).val :=
  dot_S32x8192_S8192x128_S32x128_1_0_0_1_n_n.lhsIdx_val_of_single rfl i q
theorem rhs_pv_0 (i : S32x128.Idx) (q : dot_S32x8192_S8192x128_S32x128_1_0_0_1_n_n.contr.Idx) :
    (dot_S32x8192_S8192x128_S32x128_1_0_0_1_n_n.rhsIdx i q 0).val = (q ⟨0, by decide⟩).val :=
  dot_S32x8192_S8192x128_S32x128_1_0_0_1_n_n.rhsIdx_val_of_single rfl i q
theorem rhs_pv_1 (i : S32x128.Idx) (q : dot_S32x8192_S8192x128_S32x128_1_0_0_1_n_n.contr.Idx) :
    (dot_S32x8192_S8192x128_S32x128_1_0_0_1_n_n.rhsIdx i q 1).val = (i 1).val := by
  unfold DotDims.rhsIdx
  rw [dif_neg (show ¬(1 : Fin S8192x128.rank) ∈ dot_S32x8192_S8192x128_S32x128_1_0_0_1_n_n.rhsBatch by decide), dif_pos (show (1 : Fin S8192x128.rank) ∈ dot_S32x8192_S8192x128_S32x128_1_0_0_1_n_n.rhsNonContracting by decide)]
  rfl

theorem pv_apply (a : FVec Ideal S32x8192 .bf16) (b : FVec Ideal S8192x128 .bf16) (r : Fin 32) (d : Fin 128) :
    matmul dot_S32x8192_S8192x128_S32x128_1_0_0_1_n_n none a b (constant (F := Ideal) S32x128 .f32 0x00000000#32) (ix2 r d)
      = ∑ j : Fin 8192, a (ix2 r j) * b (ix2 j d) := by
  refine (Ideal.matmul_constant_zero_apply dot_S32x8192_S8192x128_S32x128_1_0_0_1_n_n none a b (ix2 r d)).trans ?_
  rw [← Equiv.sum_comp (contrEquiv1 dot_S32x8192_S8192x128_S32x128_1_0_0_1_n_n 8192 rfl rfl).symm]
  refine Finset.sum_congr rfl fun k _ => ?_
  have hk := contrEquiv1_symm_val dot_S32x8192_S8192x128_S32x128_1_0_0_1_n_n 8192 rfl rfl k
  have el : dot_S32x8192_S8192x128_S32x128_1_0_0_1_n_n.lhsIdx (ix2 r d) ((contrEquiv1 dot_S32x8192_S8192x128_S32x128_1_0_0_1_n_n 8192 rfl rfl).symm k) = ix2 r k := funext fun c => Fin.ext (by
    match c with
    | ⟨0, _⟩ => exact lhs_pv_0 _ _
    | ⟨1, _⟩ => exact (lhs_pv_1 _ _).trans hk)
  have er : dot_S32x8192_S8192x128_S32x128_1_0_0_1_n_n.rhsIdx (ix2 r d) ((contrEquiv1 dot_S32x8192_S8192x128_S32x128_1_0_0_1_n_n 8192 rfl rfl).symm k) = ix2 k d := funext fun c => Fin.ext (by
    match c with
    | ⟨0, _⟩ => exact (rhs_pv_0 _ _).trans hk
    | ⟨1, _⟩ => exact rhs_pv_1 _ _)
  rw [el, er]

theorem lhs_nv_0 (i : S32x128.Idx) (q : dot_S32x32_S32x128_S32x128_1_0_0_1_n_n.contr.Idx) :
    (dot_S32x32_S32x128_S32x128_1_0_0_1_n_n.lhsIdx i q 0).val = (i 0).val := by
  unfold DotDims.lhsIdx
  rw [dif_neg (show ¬(0 : Fin S32x32.rank) ∈ dot_S32x32_S32x128_S32x128_1_0_0_1_n_n.lhsBatch by decide), dif_pos (show (0 : Fin S32x32.rank) ∈ dot_S32x32_S32x128_S32x128_1_0_0_1_n_n.lhsNonContracting by decide)]
  rfl
theorem lhs_nv_1 (i : S32x128.Idx) (q : dot_S32x32_S32x128_S32x128_1_0_0_1_n_n.contr.Idx) :
    (dot_S32x32_S32x128_S32x128_1_0_0_1_n_n.lhsIdx i q 1).val = (q ⟨0, by decide⟩).val :=
  dot_S32x32_S32x128_S32x128_1_0_0_1_n_n.lhsIdx_val_of_single rfl i q
theorem rhs_nv_0 (i : S32x128.Idx) (q : dot_S32x32_S32x128_S32x128_1_0_0_1_n_n.contr.Idx) :
    (dot_S32x32_S32x128_S32x128_1_0_0_1_n_n.rhsIdx i q 0).val = (q ⟨0, by decide⟩).val :=
  dot_S32x32_S32x128_S32x128_1_0_0_1_n_n.rhsIdx_val_of_single rfl i q
theorem rhs_nv_1 (i : S32x128.Idx) (q : dot_S32x32_S32x128_S32x128_1_0_0_1_n_n.contr.Idx) :
    (dot_S32x32_S32x128_S32x128_1_0_0_1_n_n.rhsIdx i q 1).val = (i 1).val := by
  unfold DotDims.rhsIdx
  rw [dif_neg (show ¬(1 : Fin S32x128.rank) ∈ dot_S32x32_S32x128_S32x128_1_0_0_1_n_n.rhsBatch by decide), dif_pos (show (1 : Fin S32x128.rank) ∈ dot_S32x32_S32x128_S32x128_1_0_0_1_n_n.rhsNonContracting by decide)]
  rfl

theorem nv_apply (a : FVec Ideal S32x32 .bf16) (b : FVec Ideal S32x128 .bf16) (r : Fin 32) (d : Fin 128) :
    matmul dot_S32x32_S32x128_S32x128_1_0_0_1_n_n none a b (constant (F := Ideal) S32x128 .f32 0x00000000#32) (ix2 r d)
      = ∑ j : Fin 32, a (ix2 r j) * b (ix2 j d) := by
  refine (Ideal.matmul_constant_zero_apply dot_S32x32_S32x128_S32x128_1_0_0_1_n_n none a b (ix2 r d)).trans ?_
  rw [← Equiv.sum_comp (contrEquiv1 dot_S32x32_S32x128_S32x128_1_0_0_1_n_n 32 rfl rfl).symm]
  refine Finset.sum_congr rfl fun k _ => ?_
  have hk := contrEquiv1_symm_val dot_S32x32_S32x128_S32x128_1_0_0_1_n_n 32 rfl rfl k
  have el : dot_S32x32_S32x128_S32x128_1_0_0_1_n_n.lhsIdx (ix2 r d) ((contrEquiv1 dot_S32x32_S32x128_S32x128_1_0_0_1_n_n 32 rfl rfl).symm k) = ix2 r k := funext fun c => Fin.ext (by
    match c with
    | ⟨0, _⟩ => exact lhs_nv_0 _ _
    | ⟨1, _⟩ => exact (lhs_nv_1 _ _).trans hk)
  have er : dot_S32x32_S32x128_S32x128_1_0_0_1_n_n.rhsIdx (ix2 r d) ((contrEquiv1 dot_S32x32_S32x128_S32x128_1_0_0_1_n_n 32 rfl rfl).symm k) = ix2 k d := funext fun c => Fin.ext (by
    match c with
    | ⟨0, _⟩ => exact (rhs_nv_0 _ _).trans hk
    | ⟨1, _⟩ => exact rhs_nv_1 _ _)
  rw [el, er]

theorem out_cast (v : FVec Ideal S32x128 .f32) (r : Fin 32) (d : Fin 128) :
    shapeCast S1x1x32x128 v shapeCasts_S32x128_S1x1x32x128 (ix4 0 0 r d) = v (ix2 r d) := by
  refine shapeCast_apply _ _ (ix4 0 0 r d) (ix2 r d) ?_
  rw [Shape.rowMajor_val_two, Shape.rowMajor_val_four]
  show r.val * 128 + d.val = ((0 * 1 + 0) * 32 + r.val) * 128 + d.val
  omega

theorem pay1_at (v8 : FVec Ideal S8192x128 .bf16) (v14 : FVec Ideal S32x128 .bf16) (v27 : FVec Ideal S32x32 .f32)
    (v34 : FVec Ideal S32x1 .f32) (v35 : FVec Ideal S32x8192 .bf16) (r : Fin 32) (d : Fin 128) :
    k0_pay1 v8 v14 v27 v34 v35 (constant (F := Ideal) S32x128 .f32 0x00000000#32) (ix4 0 0 r d)
      = ((∑ j : Fin 8192, v35 (ix2 r j) * v8 (ix2 j d)) + ∑ j : Fin 32, v27 (ix2 r j) * v14 (ix2 j d)) * v34 (ix2 r 0) := by
  unfold k0_pay1
  refine (out_cast _ r d).trans ?_
  show (matmul dot_S32x8192_S8192x128_S32x128_1_0_0_1_n_n none v35 v8 (constant (F := Ideal) S32x128 .f32 0x00000000#32) (ix2 r d)
      + matmul dot_S32x32_S32x128_S32x128_1_0_0_1_n_n none (truncf .bf16 v27 bitsLt_bf16_f32) v14 (constant (F := Ideal) S32x128 .f32 0x00000000#32) (ix2 r d))
        * broadcastTo S32x128 v34 broadcasts_S32x1_S32x128 (ix2 r d) = _
  rw [pv_apply, nv_apply, spread_d]
  rfl

/-! ## The block the body leaves

One store covers the whole output block, and each load reads a whole input block; the stored value at (0, 0, r, d) is the
split arrangement of the softmax-weighted sum. -/

theorem out_block (x0 : Vec Ideal S1x32x128 .f32) (x1 x2 : Vec Ideal S1x8192x128 .f32) (x3 x4 : Vec Ideal S1x32x128 .f32)
    (r : Fin 32) (d : Fin 128) :
    out0_5 x0 x1 x2 x3 x4 (ix4 0 0 r d)
      = splitAttn (fun j => ∑ e : Fin 128, x0 (ix3 0 r e) * x1 (ix3 0 j e)) (fun j => ∑ e : Fin 128, x0 (ix3 0 r e) * x3 (ix3 0 j e))
          (fun j => x2 (ix3 0 j d)) (fun j => x4 (ix3 0 j d)) := by
  unfold out0_5
  rw [View.canon_unit_zero zero4]
  simp only [View.ld_unit_zero (S := S1x32x128) zero3, View.ld_unit_zero (S := S1x8192x128) zero3]
  refine (pay1_at _ _ _ _ _ r d).trans ?_
  unfold splitAttn
  simp only [pay11_at, pay8_at, pay9_at, pay10_at, pay3_at, pay4_at]

end Cert.Attn.Ker

end
-- ==== Proof.KernelArray.lean ====
/-
  From one head's block to the whole attention output.

  The grid has one point per head. At point `t` every input window's block is head `t`'s 128 lanes of its array
  (all rows), and the output window's block is head `t`'s [32, 128] slab of the [1, 32, 32, 128] result. So the
  scores the body forms from its blocks are the scores of head `t`, what it writes back is head `t`'s slab of
  the two-chunk attention output, and the 32 slabs cover the result.
-/
import proofs.«404999_j70781061038436_3_alg».proof.Proof.Spec
import proofs.«404999_j70781061038436_3_alg».proof.Proof.Gen.KernelIdeal.Value
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.Attn.Ker

open Cert.KernelIdeal Cert.KernelIdeal.Gen Cert.KernelIdeal.Value

variable (m : (ℓ : Loc nD τ sig) → Buf (Elt Ideal) ℓ) (ρ : Dev nD → PrngReg)

/-- The grid point as a head. -/
def headOf (t : Fin cfg0.N) : Fin 32 := ⟨t.val, by have h : t.val < cfg0.N := t.isLt; have e : cfg0.N = 32 := N_0; omega⟩

/-- The block index of every window at point `t`: block `t` along the lanes for the five inputs, block `t` along
    the heads for the output, block 0 on every other axis (decided over the 32 points). -/
theorem idx_facts : ∀ t : Fin cfg0.N,
    (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ (win0_3.index t (0 : Fin 3) = 0 ∧ win0_3.index t (1 : Fin 3) = 0 ∧ win0_3.index t (2 : Fin 3) = t.val)
    ∧ (win0_4.index t (0 : Fin 3) = 0 ∧ win0_4.index t (1 : Fin 3) = 0 ∧ win0_4.index t (2 : Fin 3) = t.val)
    ∧ (win0_5.index t (0 : Fin 4) = 0 ∧ win0_5.index t (1 : Fin 4) = t.val ∧ win0_5.index t (2 : Fin 4) = 0 ∧ win0_5.index t (3 : Fin 4) = 0) :=
  (by decide +kernel : ∀ t : Fin grid0.N, _)

/-- The query block at point `t` is head `t`'s features of the query array. -/
theorem qblk_apply (c : Dev nD) (t : Fin cfg0.N) (r : Fin 32) (e : Fin 128) :
    (iblk m c 0 t : Vec Ideal S1x32x128 .f32) (ix3 0 r e) = tokAt (m ((c : Thread nD τ).loc main_arg0)) (headOf t) r e := by
  obtain ⟨⟨e0, e1, e2⟩, -⟩ := idx_facts t
  unfold iblk tokAt
  rw [View.read_apply]
  show V m c main_arg0 _ = m ((c : Thread nD τ).loc main_arg0) _
  unfold V
  congr 1
  funext a
  apply Fin.ext
  match a with
  | ⟨0, _⟩ => show win0_0.index t (0 : Fin 3) * 1 + 1 * 0 = 0; omega
  | ⟨1, _⟩ => show win0_0.index t (1 : Fin 3) * 32 + 1 * r.val = r.val; omega
  | ⟨2, _⟩ => show win0_0.index t (2 : Fin 3) * 128 + 1 * e.val = t.val * 128 + e.val; omega

/-- The cached-key block at point `t` is head `t`'s features of the key cache. -/
theorem kcblk_apply (c : Dev nD) (t : Fin cfg0.N) (j : Fin 8192) (e : Fin 128) :
    (iblk m c 1 t : Vec Ideal S1x8192x128 .f32) (ix3 0 j e) = cacheAt (m ((c : Thread nD τ).loc main_arg1)) (headOf t) j e := by
  obtain ⟨-, ⟨e0, e1, e2⟩, -⟩ := idx_facts t
  unfold iblk cacheAt
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = 0; omega
  | ⟨1, _⟩ => show win0_1.index t (1 : Fin 3) * 8192 + 1 * j.val = j.val; omega
  | ⟨2, _⟩ => show win0_1.index t (2 : Fin 3) * 128 + 1 * e.val = t.val * 128 + e.val; omega

/-- The cached-value block at point `t` is head `t`'s features of the value cache. -/
theorem vcblk_apply (c : Dev nD) (t : Fin cfg0.N) (j : Fin 8192) (e : Fin 128) :
    (iblk m c 2 t : Vec Ideal S1x8192x128 .f32) (ix3 0 j e) = cacheAt (m ((c : Thread nD τ).loc main_arg3)) (headOf t) j e := by
  obtain ⟨-, -, ⟨e0, e1, e2⟩, -⟩ := idx_facts t
  unfold iblk cacheAt
  rw [View.read_apply]
  show V m c main_arg3 _ = m ((c : Thread nD τ).loc main_arg3) _
  unfold V
  congr 1
  funext a
  apply Fin.ext
  match a with
  | ⟨0, _⟩ => show win0_2.index t (0 : Fin 3) * 1 + 1 * 0 = 0; omega
  | ⟨1, _⟩ => show win0_2.index t (1 : Fin 3) * 8192 + 1 * j.val = j.val; omega
  | ⟨2, _⟩ => show win0_2.index t (2 : Fin 3) * 128 + 1 * e.val = t.val * 128 + e.val; omega

/-- The new-key block at point `t` is head `t`'s features of the new keys. -/
theorem knblk_apply (c : Dev nD) (t : Fin cfg0.N) (r : Fin 32) (e : Fin 128) :
    (iblk m c 3 t : Vec Ideal S1x32x128 .f32) (ix3 0 r e) = tokAt (m ((c : Thread nD τ).loc main_arg2)) (headOf t) r e := by
  obtain ⟨-, -, -, ⟨e0, e1, e2⟩, -⟩ := idx_facts t
  unfold iblk tokAt
  rw [View.read_apply]
  show V m c main_arg2 _ = m ((c : Thread nD τ).loc main_arg2) _
  unfold V
  congr 1
  funext a
  apply Fin.ext
  match a with
  | ⟨0, _⟩ => show win0_3.index t (0 : Fin 3) * 1 + 1 * 0 = 0; omega
  | ⟨1, _⟩ => show win0_3.index t (1 : Fin 3) * 32 + 1 * r.val = r.val; omega
  | ⟨2, _⟩ => show win0_3.index t (2 : Fin 3) * 128 + 1 * e.val = t.val * 128 + e.val; omega

/-- The new-value block at point `t` is head `t`'s features of the new values. -/
theorem vnblk_apply (c : Dev nD) (t : Fin cfg0.N) (r : Fin 32) (e : Fin 128) :
    (iblk m c 4 t : Vec Ideal S1x32x128 .f32) (ix3 0 r e) = tokAt (m ((c : Thread nD τ).loc main_arg4)) (headOf t) r e := by
  obtain ⟨-, -, -, -, ⟨e0, e1, e2⟩, -⟩ := idx_facts t
  unfold iblk tokAt
  rw [View.read_apply]
  show V m c main_arg4 _ = m ((c : Thread nD τ).loc main_arg4) _
  unfold V
  congr 1
  funext a
  apply Fin.ext
  match a with
  | ⟨0, _⟩ => show win0_4.index t (0 : Fin 3) * 1 + 1 * 0 = 0; omega
  | ⟨1, _⟩ => show win0_4.index t (1 : Fin 3) * 32 + 1 * r.val = r.val; omega
  | ⟨2, _⟩ => show win0_4.index t (2 : Fin 3) * 128 + 1 * e.val = t.val * 128 + e.val; omega

/-- What the body computes from five blocks, at row `r` and feature `d` of its output block: the two-chunk
    attention of the blocks' own scores and values. -/
def BlockFormula : Prop :=
  ∀ (x0 : Vec Ideal S1x32x128 .f32) (x1 x2 : Vec Ideal S1x8192x128 .f32) (x3 x4 : Vec Ideal S1x32x128 .f32)
    (r : Fin 32) (d : Fin 128),
    out0_5 x0 x1 x2 x3 x4 (ix4 0 0 r d)
      = splitAttn (fun j => ∑ e : Fin 128, x0 (ix3 0 r e) * x1 (ix3 0 j e)) (fun j => ∑ e : Fin 128, x0 (ix3 0 r e) * x3 (ix3 0 j e))
          (fun j => x2 (ix3 0 j d)) (fun j => x4 (ix3 0 j d))

/-- The attention output of the argument arrays as launched, chunks apart. -/
def result (c : Dev nD) : Out :=
  attnSplit (m ((c : Thread nD τ).loc main_arg0)) (m ((c : Thread nD τ).loc main_arg1)) (m ((c : Thread nD τ).loc main_arg2))
    (m ((c : Thread nD τ).loc main_arg3)) (m ((c : Thread nD τ).loc main_arg4))

/-- Entry (r, d) of what point `t` computes is entry (t, r, d) of the attention output. -/
theorem entry_eq (hB : BlockFormula) (c : Dev nD) (t : Fin cfg0.N) (r : Fin 32) (d : Fin 128) :
    out0_5 (iblk m c 0 t) (iblk m c 1 t) (iblk m c 2 t) (iblk m c 3 t) (iblk m c 4 t) (ix4 0 0 r d)
      = result m c (ix4 0 (headOf t) r d) := by
  refine (hB (iblk m c 0 t) (iblk m c 1 t) (iblk m c 2 t) (iblk m c 3 t) (iblk m c 4 t) r d).trans ?_
  show _ = splitAttn (scoreC _ _ (headOf t) r) (scoreN _ _ (headOf t) r) (fun j => cacheAt _ (headOf t) j d) (fun j => tokAt _ (headOf t) j d)
  unfold scoreC scoreN
  simp only [qblk_apply, kcblk_apply, vcblk_apply, knblk_apply, vnblk_apply]

/-- What point `t` writes back is head `t`'s slab of the attention output. -/
theorem flushed_eq (hB : BlockFormula) (c : Dev nD) (t : Fin cfg0.N) :
    (dats m 0 c).flushed 5 t = ((cfg0.win 5).blk t).view.read (Elt Ideal) (result m c) := by
  rw [flushed5]
  obtain ⟨-, -, -, -, -, f0, f1, f2, f3⟩ := idx_facts t
  funext y
  have hy : y = ix4 0 0 (y 2) (y 3) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  show out0_5 (iblk m c 0 t) (iblk m c 1 t) (iblk m c 2 t) (iblk m c 3 t) (iblk m c 4 t) y = result m c (((cfg0.win 5).blk t).view.emb y)
  refine (congrArg (out0_5 (iblk m c 0 t) (iblk m c 1 t) (iblk m c 2 t) (iblk m c 3 t) (iblk m c 4 t)) hy).trans ?_
  refine (entry_eq m hB c t (y 2) (y 3)).trans (congrArg (result m c) ?_)
  funext a
  apply Fin.ext
  match a with
  | ⟨0, _⟩ => show 0 = win0_5.index t (0 : Fin 4) * 1 + 1 * (y 0).val; have : (y 0).val < 1 := (y 0).isLt; omega
  | ⟨1, _⟩ => show t.val = win0_5.index t (1 : Fin 4) * 1 + 1 * (y 1).val; have : (y 1).val < 1 := (y 1).isLt; omega
  | ⟨2, _⟩ => show (y 2).val = win0_5.index t (2 : Fin 4) * 32 + 1 * (y 2).val; omega
  | ⟨3, _⟩ => show (y 3).val = win0_5.index t (3 : Fin 4) * 128 + 1 * (y 3).val; omega

/-- An index of the result is in point `t`'s block iff each coordinate is in the block's range on its axis. -/
theorem mem_blk (t : Fin cfg0.N) (i : S1x32x32x128.Idx) :
    i ∈ ((cfg0.win 5).blk t).view.set ↔ ∀ a : Fin 4, win0_5.index t a * S1x1x32x128.size a ≤ (i a).val ∧ (i a).val < win0_5.index t a * S1x1x32x128.size a + S1x1x32x128.size a := by
  show i ∈ ((View.whole main_v0).slice (win0_5.rect t)).set ↔ _
  rw [View.set_slice_whole, Rect.mem_set_unit]
  exact Iff.rfl

/-- Every entry of the result lies in the slab of its head's point. -/
theorem cover (i : S1x32x32x128.Idx) : ∃ t : Fin cfg0.N, (cfg0.win 5).flush t = true ∧ i ∈ ((cfg0.win 5).blk t).view.set := by
  have h1 : (i 1).val < 32 := (i 1).isLt
  have hN : cfg0.N = 32 := N_0
  refine ⟨⟨(i 1).val, by omega⟩, flush0_5 _, ?_⟩
  rw [mem_blk]
  obtain ⟨-, -, -, -, -, f0, f1, f2, f3⟩ := idx_facts ⟨(i 1).val, by omega⟩
  intro a
  match a with
  | ⟨0, _⟩ => show win0_5.index _ (0 : Fin 4) * 1 ≤ (i 0).val ∧ (i 0).val < win0_5.index _ (0 : Fin 4) * 1 + 1; have : (i 0).val < 1 := (i 0).isLt; omega
  | ⟨1, _⟩ => show win0_5.index _ (1 : Fin 4) * 1 ≤ (i 1).val ∧ (i 1).val < win0_5.index _ (1 : Fin 4) * 1 + 1; have e : ((⟨(i 1).val, by omega⟩ : Fin cfg0.N)).val = (i 1).val := rfl; omega
  | ⟨2, _⟩ => show win0_5.index _ (2 : Fin 4) * 32 ≤ (i 2).val ∧ (i 2).val < win0_5.index _ (2 : Fin 4) * 32 + 32; have : (i 2).val < 32 := (i 2).isLt; omega
  | ⟨3, _⟩ => show win0_5.index _ (3 : Fin 4) * 128 ≤ (i 3).val ∧ (i 3).val < win0_5.index _ (3 : Fin 4) * 128 + 128; have : (i 3).val < 128 := (i 3).isLt; omega

/-- After the run the result array holds the attention output, chunks apart. -/
theorem final (hB : BlockFormula) (c : Dev nD) : (dats m 0 c).arrAt 5 cfg0.N = result m c :=
  (dats m 0 c).arrAt_eq_of_cover 5 (result m c) (fun t _ => flushed_eq m hB c t) cover

/-- The kernel's run, read: the result array at the attention output, the arguments unchanged. -/
theorem run (hB : BlockFormula) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hB c), (h c).2⟩) (run_blocks m ρ)

end Cert.Attn.Ker

end
-- ==== Proof.RefRead.lean ====
/-
  The reference attention read entry by entry.

  The reference lays every array out by heads (a reshape of the 4096 lanes into 32 heads of 128 features, then a
  transpose that brings the head axis forward), joins cache and new tokens along the key axis, and computes
  scores, a row maximum, exponentials, their total, weights and the weighted sum of the values. Read at head h,
  query row r and feature d, with each entry of the head layout traced back to row and lane of its source array,
  this is the softmax-weighted sum over the 8224 keys laid end to end.
-/
import proofs.«404999_j70781061038436_3_alg».proof.Proof.Spec
import proofs.«404999_j70781061038436_3_alg».proof.Proof.Gen.ReferenceIdeal.Read

noncomputable section

open Idealize.ShloMosaic Idealize.ShloMosaic.ValueIdx

namespace Cert.Attn.Ref

open Cert.ReferenceIdeal Cert.ReferenceIdeal.Read

namespace Rd

/-! ## The head layout: a reshape [1, t, 4096] → [1, t, 32, 128] followed by the transpose to [1, 32, t, 128]

Row-major, the element (0, h, t, e) of the transposed array is the element (0, t, h, e) of the reshaped one, whose
flat position (t * 32 + h) * 128 + e = t * 4096 + (h * 128 + e) is row t, lane h * 128 + e of the source. -/

/-- The queries in head layout, at head `h`, row `r`, feature `e`. -/
theorem q_read (x0 : (⟨S1x32x4096, .f32⟩ : BufTy).Contents (Elt Ideal)) (i : S1x32x32x128.Idx) (h r : Fin 32) (e : Fin 128)
    (h1 : (i 1).val = h.val) (h2 : (i 2).val = r.val) (h3 : (i 3).val = e.val) :
    val_main_v11 (F := Ideal) x0 i = tokAt x0 h r e := by
  rw [val_main_v11_apply, val_main_v10_apply]
  unfold tokAt
  refine congrArg x0 (funext fun a => Fin.ext ?_)
  have h0 : (i 0).val < 1 := (i 0).isLt
  have := h.isLt; have := r.isLt; have := e.isLt
  match a with
  | ⟨0, _⟩ => rfl
  | ⟨1, _⟩ =>
    show ((((i 0).val * 32 + (i 2).val) * 32 + (i 1).val) * 128 + (i 3).val) / 4096 % 32 = r.val
    omega
  | ⟨2, _⟩ =>
    show ((((i 0).val * 32 + (i 2).val) * 32 + (i 1).val) * 128 + (i 3).val) % 4096 = h.val * 128 + e.val
    omega

/-- The new keys in head layout, at head `h`, token `j`, feature `e`. -/
theorem kn_read (x2 : (⟨S1x32x4096, .f32⟩ : BufTy).Contents (Elt Ideal)) (i : S1x32x32x128.Idx) (h j : Fin 32) (e : Fin 128)
    (h1 : (i 1).val = h.val) (h2 : (i 2).val = j.val) (h3 : (i 3).val = e.val) :
    val_main_v3 (F := Ideal) x2 i = tokAt x2 h j e := by
  rw [val_main_v3_apply, val_main_v2_apply]
  unfold tokAt
  refine congrArg x2 (funext fun a => Fin.ext ?_)
  have h0 : (i 0).val < 1 := (i 0).isLt
  have := h.isLt; have := j.isLt; have := e.isLt
  match a with
  | ⟨0, _⟩ => rfl
  | ⟨1, _⟩ =>
    show ((((i 0).val * 32 + (i 2).val) * 32 + (i 1).val) * 128 + (i 3).val) / 4096 % 32 = j.val
    omega
  | ⟨2, _⟩ =>
    show ((((i 0).val * 32 + (i 2).val) * 32 + (i 1).val) * 128 + (i 3).val) % 4096 = h.val * 128 + e.val
    omega

/-- The new values in head layout, at head `h`, token `j`, feature `e`. -/
theorem vn_read (x4 : (⟨S1x32x4096, .f32⟩ : BufTy).Contents (Elt Ideal)) (i : S1x32x32x128.Idx) (h j : Fin 32) (e : Fin 128)
    (h1 : (i 1).val = h.val) (h2 : (i 2).val = j.val) (h3 : (i 3).val = e.val) :
    val_main_v8 (F := Ideal) x4 i = tokAt x4 h j e := by
  rw [val_main_v8_apply, val_main_v7_apply]
  unfold tokAt
  refine congrArg x4 (funext fun a => Fin.ext ?_)
  have h0 : (i 0).val < 1 := (i 0).isLt
  have := h.isLt; have := j.isLt; have := e.isLt
  match a with
  | ⟨0, _⟩ => rfl
  | ⟨1, _⟩ =>
    show ((((i 0).val * 32 + (i 2).val) * 32 + (i 1).val) * 128 + (i 3).val) / 4096 % 32 = j.val
    omega
  | ⟨2, _⟩ =>
    show ((((i 0).val * 32 + (i 2).val) * 32 + (i 1).val) * 128 + (i 3).val) % 4096 = h.val * 128 + e.val
    omega

/-- The key cache in head layout, at head `h`, position `j`, feature `e`. -/
theorem kc_read (x1 : (⟨S1x8192x4096, .f32⟩ : BufTy).Contents (Elt Ideal)) (i : S1x32x8192x128.Idx) (h : Fin 32) (j : Fin 8192)
    (e : Fin 128) (h1 : (i 1).val = h.val) (h2 : (i 2).val = j.val) (h3 : (i 3).val = e.val) :
    val_main_v1 (F := Ideal) x1 i = cacheAt x1 h j e := by
  rw [val_main_v1_apply, val_main_v0_apply]
  unfold cacheAt
  refine congrArg x1 (funext fun a => Fin.ext ?_)
  have h0 : (i 0).val < 1 := (i 0).isLt
  have := h.isLt; have := j.isLt; have := e.isLt
  match a with
  | ⟨0, _⟩ => rfl
  | ⟨1, _⟩ =>
    show ((((i 0).val * 8192 + (i 2).val) * 32 + (i 1).val) * 128 + (i 3).val) / 4096 % 8192 = j.val
    omega
  | ⟨2, _⟩ =>
    show ((((i 0).val * 8192 + (i 2).val) * 32 + (i 1).val) * 128 + (i 3).val) % 4096 = h.val * 128 + e.val
    omega

/-- The value cache in head layout, at head `h`, position `j`, feature `e`. -/
theorem vc_read (x3 : (⟨S1x8192x4096, .f32⟩ : BufTy).Contents (Elt Ideal)) (i : S1x32x8192x128.Idx) (h : Fin 32) (j : Fin 8192)
    (e : Fin 128) (h1 : (i 1).val = h.val) (h2 : (i 2).val = j.val) (h3 : (i 3).val = e.val) :
    val_main_v6 (F := Ideal) x3 i = cacheAt x3 h j e := by
  rw [val_main_v6_apply, val_main_v5_apply]
  unfold cacheAt
  refine congrArg x3 (funext fun a => Fin.ext ?_)
  have h0 : (i 0).val < 1 := (i 0).isLt
  have := h.isLt; have := j.isLt; have := e.isLt
  match a with
  | ⟨0, _⟩ => rfl
  | ⟨1, _⟩ =>
    show ((((i 0).val * 8192 + (i 2).val) * 32 + (i 1).val) * 128 + (i 3).val) / 4096 % 8192 = j.val
    omega
  | ⟨2, _⟩ =>
    show ((((i 0).val * 8192 + (i 2).val) * 32 + (i 1).val) * 128 + (i 3).val) % 4096 = h.val * 128 + e.val
    omega

/-! ## The concatenations along the key axis

At a key position below 8192 the joined array is the cache's at that position; from 8192 on it is the new
tokens' at the position less 8192. -/

/-- An index of the joined array [1, 32, 8224, 128] whose key coordinate is below 8192, as an index of the first
    piece [1, 32, 8192, 128]. -/
abbrev idxC (i : S1x32x8224x128.Idx) (hk : (i 2).val < 8192) : S1x32x8192x128.Idx := fun a => match a with
  | ⟨0, _⟩ => ⟨(i 0).val, (i 0).isLt⟩
  | ⟨1, _⟩ => ⟨(i 1).val, (i 1).isLt⟩
  | ⟨2, _⟩ => ⟨(i 2).val, hk⟩
  | ⟨3, _⟩ => ⟨(i 3).val, (i 3).isLt⟩

/-- An index of the joined array whose key coordinate is at least 8192, as an index of the second piece
    [1, 32, 32, 128]. -/
abbrev idxN (i : S1x32x8224x128.Idx) (hk : ¬ (i 2).val < 8192) : S1x32x32x128.Idx := fun a => match a with
  | ⟨0, _⟩ => ⟨(i 0).val, (i 0).isLt⟩
  | ⟨1, _⟩ => ⟨(i 1).val, (i 1).isLt⟩
  | ⟨2, _⟩ => ⟨(i 2).val - 8192, by have h2 : (i 2).val < 8224 := (i 2).isLt; show (i 2).val - 8192 < 32; omega⟩
  | ⟨3, _⟩ => ⟨(i 3).val, (i 3).isLt⟩

/-- The joined keys at head `h`, key `k`, feature `e`. -/
theorem kcat_read (x1 : (⟨S1x8192x4096, .f32⟩ : BufTy).Contents (Elt Ideal)) (x2 : (⟨S1x32x4096, .f32⟩ : BufTy).Contents (Elt Ideal))
    (i : S1x32x8224x128.Idx) (h : Fin 32) (k : Fin 8224) (e : Fin 128)
    (h1 : (i 1).val = h.val) (h2 : (i 2).val = k.val) (h3 : (i 3).val = e.val) :
    val_main_v4 (F := Ideal) x1 x2 i = join (fun j => cacheAt x1 h j e) (fun j => tokAt x2 h j e) k := by
  unfold val_main_v4 join
  by_cases hk : k.val < 8192
  · rw [dif_pos hk]
    have hk' : (i 2).val < 8192 := by omega
    rw [concatenate_pair_apply_left (s₁ := S1x32x8192x128) (s₂ := S1x32x32x128) 2 _ _ _ i rfl (idxC i hk') (fun b => by
      match b with
      | ⟨0, _⟩ => rfl
      | ⟨1, _⟩ => rfl
      | ⟨2, _⟩ => rfl
      | ⟨3, _⟩ => rfl)]
    exact kc_read x1 _ h ⟨k.val, hk⟩ e h1 h2 h3
  · rw [dif_neg hk]
    have hk' : ¬ (i 2).val < 8192 := by omega
    rw [concatenate_pair_apply_right (s₁ := S1x32x8192x128) (s₂ := S1x32x32x128) 2 _ _ _ i rfl rfl (idxN i hk') (fun b hb => by
      match b with
      | ⟨0, _⟩ => rfl
      | ⟨1, _⟩ => rfl
      | ⟨2, _⟩ => exact absurd rfl hb
      | ⟨3, _⟩ => rfl) (by show (i 2).val - 8192 + 8192 = (i 2).val; omega)]
    exact kn_read x2 _ h ⟨k.val - 8192, by have := k.isLt; omega⟩ e h1 (by show (i 2).val - 8192 = k.val - 8192; omega) h3

/-- The joined values at head `h`, key `k`, feature `d`. -/
theorem vcat_read (x3 : (⟨S1x8192x4096, .f32⟩ : BufTy).Contents (Elt Ideal)) (x4 : (⟨S1x32x4096, .f32⟩ : BufTy).Contents (Elt Ideal))
    (i : S1x32x8224x128.Idx) (h : Fin 32) (k : Fin 8224) (d : Fin 128)
    (h1 : (i 1).val = h.val) (h2 : (i 2).val = k.val) (h3 : (i 3).val = d.val) :
    val_main_v9 (F := Ideal) x3 x4 i = join (fun j => cacheAt x3 h j d) (fun j => tokAt x4 h j d) k := by
  unfold val_main_v9 join
  by_cases hk : k.val < 8192
  · rw [dif_pos hk]
    have hk' : (i 2).val < 8192 := by omega
    rw [concatenate_pair_apply_left (s₁ := S1x32x8192x128) (s₂ := S1x32x32x128) 2 _ _ _ i rfl (idxC i hk') (fun b => by
      match b with
      | ⟨0, _⟩ => rfl
      | ⟨1, _⟩ => rfl
      | ⟨2, _⟩ => rfl
      | ⟨3, _⟩ => rfl)]
    exact vc_read x3 _ h ⟨k.val, hk⟩ d h1 h2 h3
  · rw [dif_neg hk]
    have hk' : ¬ (i 2).val < 8192 := by omega
    rw [concatenate_pair_apply_right (s₁ := S1x32x8192x128) (s₂ := S1x32x32x128) 2 _ _ _ i rfl rfl (idxN i hk') (fun b hb => by
      match b with
      | ⟨0, _⟩ => rfl
      | ⟨1, _⟩ => rfl
      | ⟨2, _⟩ => exact absurd rfl hb
      | ⟨3, _⟩ => rfl) (by show (i 2).val - 8192 + 8192 = (i 2).val; omega)]
    exact vn_read x4 _ h ⟨k.val - 8192, by have := k.isLt; omega⟩ d h1 (by show (i 2).val - 8192 = k.val - 8192; omega) h3

/-! ## The scores, their row maximum, the exponentials, their total, the weights -/

/-- The inner product of a query row with the joined keys is the joined scores: a sum over the features of a
    product whose second factor is chosen by the key position is the sum chosen by the key position. -/
theorem score_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32x8224.Idx) (h r : Fin 32) (k : Fin 8224)
    (h1 : (i 1).val = h.val) (h2 : (i 2).val = r.val) (h3 : (i 3).val = k.val) :
    val_main_v12 (F := Ideal) x0 x1 x2 i = join (scoreC x0 x1 h r) (scoreN x0 x2 h r) k := by
  rw [val_main_v12_apply]
  have e1 : ∀ e : Fin 128, val_main_v11 (F := Ideal) x0 (lidx_main_v12 i e) = tokAt x0 h r e :=
    fun e => q_read x0 _ h r e h1 h2 rfl
  have e2 : ∀ e : Fin 128, val_main_v4 (F := Ideal) x1 x2 (ridx_main_v12 i e)
      = join (fun j => cacheAt x1 h j e) (fun j => tokAt x2 h j e) k :=
    fun e => kcat_read x1 x2 _ h k e h1 h3 rfl
  rw [Finset.sum_congr rfl (fun e _ => by rw [e1 e, e2 e] :
    ∀ e ∈ (Finset.univ : Finset (Fin 128)), val_main_v11 (F := Ideal) x0 (lidx_main_v12 i e) * val_main_v4 (F := Ideal) x1 x2 (ridx_main_v12 i e)
      = tokAt x0 h r e * join (fun j => cacheAt x1 h j e) (fun j => tokAt x2 h j e) k)]
  by_cases hk : k.val < 8192
  · simp only [join, dif_pos hk]; rfl
  · simp only [join, dif_neg hk]; rfl

/-- The maximum over the key axis, from `-∞`, is the fold of `max` over the joined scores. -/
theorem rowmax_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32.Idx) (h r : Fin 32)
    (h1 : (i 1).val = h.val) (h2 : (i 2).val = r.val) :
    val_main_v13 (F := Ideal) x0 x1 x2 i = Finset.univ.fold max ⊥ (join (scoreC x0 x1 h r) (scoreN x0 x2 h r)) := by
  unfold val_main_v13
  have hR : S1x32x32x8224.Reduces [3] S1x32x32 := by decide
  rw [Host.reduce_eq_fold_single (FloatOps.maximumf (F := Ideal) (φ := .f32)) (val_main_v12 (F := Ideal) x0 x1 x2)
    (val_main_cst (F := Ideal)) Gen.reducesTo_S1x32x32x8224_S1x32x32_d3 hR Gen.h_S_ i]
  have hf : (val_main_v12 (F := Ideal) x0 x1 x2 ∘ hR.lift i) = join (scoreC x0 x1 h r) (scoreN x0 x2 h r) :=
    funext fun k => score_read x0 x1 x2 _ h r k h1 h2 rfl
  rw [hf, val_main_cst_apply]
  show Finset.univ.fold max (Ideal.ofBits .f32 0xFF800000#32) _ = _
  rw [ofBits_negInf]
  rfl

/-- The row maximum the softmax subtracts: the fold taken against `-∞` once more. -/
theorem max_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32.Idx) (h r : Fin 32)
    (h1 : (i 1).val = h.val) (h2 : (i 2).val = r.val) :
    val_main_v15 (F := Ideal) x0 x1 x2 i = maxJoin (join (scoreC x0 x1 h r) (scoreN x0 x2 h r)) := by
  rw [val_main_v15_apply, val_main_v14_apply, val_main_cst_0_apply, rowmax_read x0 x1 x2 i h r h1 h2]
  unfold maxJoin
  show max (Ideal.ofBits .f32 0xFF800000#32) _ = _
  rw [ofBits_negInf]

/-- The row maximum broadcast back along the key axis. -/
theorem maxb_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32x8224.Idx) (h r : Fin 32)
    (h1 : (i 1).val = h.val) (h2 : (i 2).val = r.val) :
    val_main_v17 (F := Ideal) x0 x1 x2 i = maxJoin (join (scoreC x0 x1 h r) (scoreN x0 x2 h r)) := by
  rw [val_main_v17_apply, val_main_v16_apply]
  exact max_read x0 x1 x2 _ h r h1 h2

/-- The exponential of a score less the row maximum. -/
theorem exp_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32x8224.Idx) (h r : Fin 32) (k : Fin 8224)
    (h1 : (i 1).val = h.val) (h2 : (i 2).val = r.val) (h3 : (i 3).val = k.val) :
    val_main_v19 (F := Ideal) x0 x1 x2 i
      = Ideal.exp (join (scoreC x0 x1 h r) (scoreN x0 x2 h r) k - maxJoin (join (scoreC x0 x1 h r) (scoreN x0 x2 h r))) := by
  rw [val_main_v19_apply, val_main_v18_apply, score_read x0 x1 x2 i h r k h1 h2 h3, maxb_read x0 x1 x2 i h r h1 h2]
  rfl

/-- The total of the exponentials along the key axis, summed from zero. -/
theorem total_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32.Idx) (h r : Fin 32)
    (h1 : (i 1).val = h.val) (h2 : (i 2).val = r.val) :
    val_main_v20 (F := Ideal) x0 x1 x2 i
      = 0 + ∑ k : Fin 8224, Ideal.exp (join (scoreC x0 x1 h r) (scoreN x0 x2 h r) k
          - maxJoin (join (scoreC x0 x1 h r) (scoreN x0 x2 h r))) := by
  rw [val_main_v20_apply, val_main_cst_1_apply]
  show Ideal.ofBits .f32 0x00000000#32 + _ = _
  rw [Ideal.ofBits_zero_f32]
  refine congrArg (0 + ·) (Finset.sum_congr rfl fun k _ => ?_)
  exact exp_read x0 x1 x2 _ h r k h1 h2 rfl

/-- A softmax weight: the exponential divided by the row's total. -/
theorem weight_read (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (i : S1x32x32x8224.Idx) (h r : Fin 32) (k : Fin 8224)
    (h1 : (i 1).val = h.val) (h2 : (i 2).val = r.val) (h3 : (i 3).val = k.val) :
    val_main_v23 (F := Ideal) x0 x1 x2 i
      = Ideal.div (Ideal.exp (join (scoreC x0 x1 h r) (scoreN x0 x2 h r) k - maxJoin (join (scoreC x0 x1 h r) (scoreN x0 x2 h r))))
          (0 + ∑ k' : Fin 8224, Ideal.exp (join (scoreC x0 x1 h r) (scoreN x0 x2 h r) k'
            - maxJoin (join (scoreC x0 x1 h r) (scoreN x0 x2 h r)))) := by
  rw [val_main_v23_apply, val_main_v22_apply, val_main_v21_apply, exp_read x0 x1 x2 i h r k h1 h2 h3,
    total_read x0 x1 x2 _ h r h1 h2]
  rfl

/-! ## The output -/

/-- The reference's output at head `h`, query row `r`, feature `d`: the weights against the joined values. -/
theorem out_at (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (x3 : (⟨S1x8192x4096, .f32⟩ : BufTy).Contents (Elt Ideal))
    (x4 : (⟨S1x32x4096, .f32⟩ : BufTy).Contents (Elt Ideal)) (b : Fin 1) (h r : Fin 32) (d : Fin 128) :
    val_main_v24 (F := Ideal) x0 x1 x2 x3 x4 (ix4 b h r d)
      = joinAttn (join (scoreC x0 x1 h r) (scoreN x0 x2 h r)) (join (fun j => cacheAt x3 h j d) (fun j => tokAt x4 h j d)) := by
  rw [val_main_v24_apply]
  unfold joinAttn
  refine Finset.sum_congr rfl fun k _ => ?_
  rw [weight_read x0 x1 x2 _ h r k rfl rfl rfl, vcat_read x3 x4 _ h k d rfl rfl rfl]

end Rd

/-- The reference program's attention output is the attention over the keys laid end to end. -/
theorem out_eq (x0 : (⟨S1x32x4096, .f32⟩ : BufTy).Contents (Elt Ideal)) (x1 : (⟨S1x8192x4096, .f32⟩ : BufTy).Contents (Elt Ideal))
    (x2 : (⟨S1x32x4096, .f32⟩ : BufTy).Contents (Elt Ideal)) (x3 : (⟨S1x8192x4096, .f32⟩ : BufTy).Contents (Elt Ideal))
    (x4 : (⟨S1x32x4096, .f32⟩ : BufTy).Contents (Elt Ideal)) :
    val_main_v24 (F := Ideal) x0 x1 x2 x3 x4 = attnJoin x0 x1 x2 x3 x4 := by
  funext i
  obtain ⟨b, h, r, d, rfl⟩ : ∃ (b : Fin 1) (h r : Fin 32) (d : Fin 128), i = ix4 b h r d :=
    ⟨_, _, _, _, ValueIdx.eq_ix4 i⟩
  exact Rd.out_at x0 x1 x2 x3 x4 b h r d

end Cert.Attn.Ref

end
-- ==== Proof.RefPass.lean ====
/-
  The reference's second and third results are its new keys and new values.

  It lays the new tokens out by heads, joins them after the cache along the key axis, slices the last 32 key
  positions off again, and undoes the head layout. Entry (0, r, l) of the result is traced back through these six
  steps to entry (0, r, (l / 128) * 128 + l % 128) = (0, r, l) of the argument.
-/
import proofs.«404999_j70781061038436_3_alg».proof.Proof.Gen.ReferenceIdeal.Read

noncomputable section

open Idealize.ShloMosaic Idealize.ShloMosaic.ValueIdx

namespace Cert.Attn.Ref

open Cert.ReferenceIdeal Cert.ReferenceIdeal.Read

variable {F : FTy → Type} [FloatOps F]

/-- The cache followed by the new rows along axis 2, read at row `8192 + t`: past the 8192 cached rows the
    joined array is its second operand, at row `t`, the other coordinates unchanged. -/
theorem concat_tail {α : Type} (h : Shape.Concatenates [S1x32x8192x128, S1x32x32x128] S1x32x8224x128 2)
    (y1 : S1x32x8192x128.Idx → α) (y2 : S1x32x32x128.Idx → α) (k : S1x32x32x128.Idx) :
    concatenate S1x32x8224x128 2 [⟨S1x32x8192x128, y1⟩, ⟨S1x32x32x128, y2⟩] h (idx_main_v25 k) = y2 k :=
  concatenate_pair_apply_right (t := S1x32x8224x128) 2 y1 y2 h (idx_main_v25 k) rfl rfl k
    (fun b hb => match b, hb with
      | ⟨0, _⟩, _ => rfl
      | ⟨1, _⟩, _ => rfl
      | ⟨2, _⟩, hb => absurd rfl hb
      | ⟨3, _⟩, _ => rfl)
    (Nat.add_comm _ _)

theorem newKeys_eq (x1 : (⟨S1x8192x4096, .f32⟩ : BufTy).Contents (Elt F)) (x2 : (⟨S1x32x4096, .f32⟩ : BufTy).Contents (Elt F)) :
    val_main_v27 (F := F) x1 x2 = x2 := by
  funext i
  -- an index of the [1, 32, 4096] array is (0, r, l): row r, lane l
  obtain ⟨r, l, rfl⟩ : ∃ (r : Fin 32) (l : Fin 4096), i = ix3 0 r l :=
    ⟨i 1, i 2, by rw [eq_ix3 i]; congr 1; exact Fin.ext (Nat.lt_one_iff.1 (i 0).isLt)⟩
  -- reshape back, transpose back, and the slice of rows 8192..8224: the joined array at (0, l / 128, 8192 + r, l % 128)
  rw [val_main_v27_apply, val_main_v26_apply, val_main_v25_apply]
  unfold val_main_v4
  -- past the cached rows that is the second operand at (0, l / 128, r, l % 128)
  refine (concat_tail _ _ _ _).trans ?_
  -- the transpose and the reshape of the argument: the argument at (0, r, (l / 128) * 128 + l % 128)
  rw [val_main_v3_apply, val_main_v2_apply]
  refine congrArg x2 (funext fun a => Fin.ext ?_)
  have hr := r.isLt
  have hl := l.isLt
  -- coordinate by coordinate; the lane is (l / 128) * 128 + l % 128 = l
  match a with
  | ⟨0, _⟩ => rfl
  | ⟨1, _⟩ =>
    show (((0 * 32 + ((0 * 32 + r.val) * 4096 + l.val) / 4096 % 32) * 32 + ((0 * 32 + r.val) * 4096 + l.val) / 128 % 32) * 128 + ((0 * 32 + r.val) * 4096 + l.val) % 128) / 4096 % 32 = r.val
    omega
  | ⟨2, _⟩ =>
    show (((0 * 32 + ((0 * 32 + r.val) * 4096 + l.val) / 4096 % 32) * 32 + ((0 * 32 + r.val) * 4096 + l.val) / 128 % 32) * 128 + ((0 * 32 + r.val) * 4096 + l.val) % 128) % 4096 = l.val
    omega

theorem newValues_eq (x3 : (⟨S1x8192x4096, .f32⟩ : BufTy).Contents (Elt F)) (x4 : (⟨S1x32x4096, .f32⟩ : BufTy).Contents (Elt F)) :
    val_main_v30 (F := F) x3 x4 = x4 := by
  funext i
  -- an index of the [1, 32, 4096] array is (0, r, l): row r, lane l
  obtain ⟨r, l, rfl⟩ : ∃ (r : Fin 32) (l : Fin 4096), i = ix3 0 r l :=
    ⟨i 1, i 2, by rw [eq_ix3 i]; congr 1; exact Fin.ext (Nat.lt_one_iff.1 (i 0).isLt)⟩
  -- reshape back, transpose back, and the slice of rows 8192..8224: the joined array at (0, l / 128, 8192 + r, l % 128)
  rw [val_main_v30_apply, val_main_v29_apply, val_main_v28_apply]
  unfold val_main_v9
  -- past the cached rows that is the second operand at (0, l / 128, r, l % 128)
  refine (concat_tail _ _ _ _).trans ?_
  -- the transpose and the reshape of the argument: the argument at (0, r, (l / 128) * 128 + l % 128)
  rw [val_main_v8_apply, val_main_v7_apply]
  refine congrArg x4 (funext fun a => Fin.ext ?_)
  have hr := r.isLt
  have hl := l.isLt
  -- coordinate by coordinate; the lane is (l / 128) * 128 + l % 128 = l
  match a with
  | ⟨0, _⟩ => rfl
  | ⟨1, _⟩ =>
    show (((0 * 32 + ((0 * 32 + r.val) * 4096 + l.val) / 4096 % 32) * 32 + ((0 * 32 + r.val) * 4096 + l.val) / 128 % 32) * 128 + ((0 * 32 + r.val) * 4096 + l.val) % 128) / 4096 % 32 = r.val
    omega
  | ⟨2, _⟩ =>
    show (((0 * 32 + ((0 * 32 + r.val) * 4096 + l.val) / 4096 % 32) * 32 + ((0 * 32 + r.val) * 4096 + l.val) / 128 % 32) * 128 + ((0 * 32 + r.val) * 4096 + l.val) % 128) % 4096 = l.val
    omega

end Cert.Attn.Ref

end
-- ==== Proof.Finite.lean ====
/-
  Finite inputs are real.

  The precondition says, for each of the five arrays, that every entry's absolute value lies strictly below +∞,
  and takes the conjunction. An extended real with that property is neither infinity, hence a real number.
-/
import proofs.«404999_j70781061038436_3_alg».proof.Proof.Spec
import proofs.«404999_j70781061038436_3_alg».proof.Defs
import proofs.«404999_j70781061038436_3_alg».proof.Proof.Gen.Pre_finite_inputs
import Idealize.ShloMosaic.Lib.ReduceAll

noncomputable section

open Idealize.ShloMosaic Idealize.ShloMosaic.ValueIdx Idealize.SL.Sem

namespace Cert.Attn

/-- The f32 pattern of `+∞` is the top of the extended reals. -/
theorem ofBits_posInf : Ideal.ofBits .f32 0x7F800000#32 = (⊤ : EReal) := by
  simp [Ideal.ofBits, Ideal.ieee]

/-- An extended real whose absolute value `max a (-a)` lies strictly below `+∞` is a real number:
    `+∞` is its own absolute value, and `-∞` has absolute value `+∞`. -/
theorem real_of_abs_lt_top (a : EReal) (h : Ideal.cmp .olt (max a (-a)) ⊤ = 1#1) : ∃ x : ℝ, a = (x : EReal) := by
  induction a using EReal.rec with
  | bot => simp [Ideal.cmp] at h
  | top => simp [Ideal.cmp] at h
  | coe r => exact ⟨r, rfl⟩

/-- One conjunct of the precondition, for an array of any shape: if the conjunction over all entries of
    `|x| < +∞` is true, every entry of `x` is a real number. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) :
    IsReal x := by
  intro i
  -- the rank-0 shape has one index
  haveI : Subsingleton Cert.Pre_finite_inputs.S_.Idx := ⟨fun a b => funext fun d => d.elim0⟩
  have h := Host.reduce_andi_all _ _ hr hu ix0 e i
  refine real_of_abs_lt_top (x i) ?_
  rw [← ofBits_posInf]
  exact h

theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4)) := by
  -- the predicate's result has rank 0: read it at its one index, and unfold the printed chain of operations
  have h0 := congrFun (h c) ix0
  dsimp only [Cert.Pre_finite_inputs.fn, Cert.Pre_finite_inputs.fn_part1] at h0
  -- a conjunction of one-bit words is 1 exactly when both are: peel the five conjuncts off, last first
  obtain ⟨h03, e4⟩ := IntOp.andi_eq_one.1 h0
  obtain ⟨h02, e3⟩ := IntOp.andi_eq_one.1 h03
  obtain ⟨h01, e2⟩ := IntOp.andi_eq_one.1 h02
  obtain ⟨e0, e1⟩ := IntOp.andi_eq_one.1 h01
  exact ⟨isReal_of_all _ _ _ _ e0, isReal_of_all _ _ _ _ e1, isReal_of_all _ _ _ _ e2,
    isReal_of_all _ _ _ _ e3, isReal_of_all _ _ _ _ e4⟩

end Cert.Attn

end
-- ==== Proof.Claims.lean ====
/-
  The claims, from the pieces.

  The three frames are the programs' runs with the results dropped. The equivalence: the kernel's result array ends
  at the two-chunk attention output of its arguments and hands its new keys and new values back untouched; the
  reference's first result is the attention output over the keys laid end to end, and its second and third
  results, once the reshape, transpose, concatenate, slice, transpose and reshape are read index by index, are
  its new-key and new-value arguments. The two attention outputs agree because every input is real: the
  finiteness precondition is what the distributive step of the algebraic law needs.
-/
import proofs.«404999_j70781061038436_3_alg».proof.Defs
import proofs.«404999_j70781061038436_3_alg».proof.Proof.Gen.Kernel.Frame
import proofs.«404999_j70781061038436_3_alg».proof.Proof.Gen.ReferenceIdeal.Read
import proofs.«404999_j70781061038436_3_alg».proof.Proof.KernelArray

noncomputable section

open Idealize.ShloMosaic Idealize.ShloMosaic.TcCoe Idealize.SL.Sem

namespace Cert.Attn.Claims

open Cert.Attn

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- The equivalence, given: the body's formula on blocks; the algebraic law; the reference's three results read
    index by index; and that the precondition makes every input real. -/
theorem algebraic_of [Cert.KernelIdeal.Facts] [Cert.ReferenceIdeal.Facts] [Cert.Pre_finite_inputs.Facts]
    (hB : Ker.BlockFormula)
    (hLaw : ∀ (Q : Tok) (Kc : Cache) (Kn : Tok) (Vc : Cache) (Vn : Tok), IsReal Q → IsReal Kc → IsReal Kn → IsReal Vc → IsReal Vn →
      attnSplit Q Kc Kn Vc Vn = attnJoin Q Kc Kn Vc Vn)
    (hOut : ∀ x0 x1 x2 x3 x4, Cert.ReferenceIdeal.Read.val_main_v24 (F := Ideal) x0 x1 x2 x3 x4 = attnJoin x0 x1 x2 x3 x4)
    (hK : ∀ x1 x2, Cert.ReferenceIdeal.Read.val_main_v27 (F := Ideal) x1 x2 = x2)
    (hV : ∀ x3 x4, Cert.ReferenceIdeal.Read.val_main_v30 (F := Ideal) x3 x4 = x4)
    (hReal : ∀ (m : (ℓ : Loc Cert.KernelIdeal.nD Cert.KernelIdeal.τ Cert.KernelIdeal.sig) → Buf (Elt Ideal) ℓ),
      Cert.Pre_KernelIdeal m → ∀ c : Dev Cert.KernelIdeal.nD,
        IsReal (m ((c.tc : Thread Cert.KernelIdeal.nD Cert.KernelIdeal.τ).loc Cert.KernelIdeal.main_arg0))
        ∧ IsReal (m ((c.tc : Thread Cert.KernelIdeal.nD Cert.KernelIdeal.τ).loc Cert.KernelIdeal.main_arg1))
        ∧ IsReal (m ((c.tc : Thread Cert.KernelIdeal.nD Cert.KernelIdeal.τ).loc Cert.KernelIdeal.main_arg2))
        ∧ IsReal (m ((c.tc : Thread Cert.KernelIdeal.nD Cert.KernelIdeal.τ).loc Cert.KernelIdeal.main_arg3))
        ∧ IsReal (m ((c.tc : Thread Cert.KernelIdeal.nD Cert.KernelIdeal.τ).loc Cert.KernelIdeal.main_arg4))) :
    Cert.algebraic_KernelIdeal_ReferenceIdeal := by
  intro m ρ m' ρ' hpre hagree
  refine ⟨fun c => Ker.result m c, fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg4), ?_, ?_⟩
  · refine (θ_run Cert.KernelIdeal.defs _ _).mono (fun r h c => ?_) (Ker.run m ρ hB)
    obtain ⟨h0, ha0, ha1, ha2, ha3, ha4⟩ := h c
    exact ⟨h0, ha2, ha4, ha0, ha1, ha2, ha3, ha4⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4⟩ := hagree c
    obtain ⟨r0, r1, r2, r3, r4⟩ := hReal m hpre c
    refine ⟨h0.trans ?_, h1.trans ?_, h2.trans ?_, hargs⟩
    · rw [Cert.ReferenceIdeal.Read.val_main_v24_eq, hOut, e0, e1, e2, e3, e4]
      exact (hLaw _ _ _ _ _ r0 r1 r2 r3 r4).symm
    · rw [Cert.ReferenceIdeal.Read.val_main_v27_eq, hK, e2]
    · rw [Cert.ReferenceIdeal.Read.val_main_v30_eq, hV, e4]

end Cert.Attn.Claims

end
-- ==== Proof.lean ====
/-
  A Pallas multi-head attention over a key/value cache, against its jnp reference, over the extended reals.

  Both programs take queries, a key cache, new keys, a value cache and new values, split the model width into
  32 heads of 128 features, score every query row against the 8192 cached and the 32 new keys of its head
  (no scaling), take the softmax over those 8224 scores and return the weighted sum of the values, together with
  the new keys and the new values themselves.

  The kernel runs one head per grid point and never concatenates: it keeps the cached and the new scores apart,
  joins their maxima by one `max`, adds their two sums of exponentials, adds the two value products and
  multiplies once by the reciprocal of the total. Its narrowing of the matrix products' operands to bf16 is the
  identity on the extended reals. The reference concatenates keys and values, takes one maximum, divides each
  exponential by the total and contracts with the values. For real inputs these are one number, entry by entry
  (the algebraic law: a sum or a maximum over keys laid end to end is that of the two chunks, and the reciprocal
  of a positive real total distributes over a finite real sum); finiteness of the inputs is what makes every
  score, exponential and total real. The second and third results are the new keys and values: the reference's
  reshape, transpose, concatenate, slice of the last 32 rows, transpose and reshape read index by index return the
  argument's own entry.

  Modules: Spec (the two arrangements as functions of the arrays), Law (their equality for real inputs),
  KernelBlock (the body's arithmetic on five blocks is the two-chunk formula), KernelArray (blocks to the whole
  result array: one head per point, the slabs cover), RefRead (the reference's first result is the end-to-end
  formula), RefPass (its other two results are its arguments), Finite (the precondition makes the inputs real),
  Claims (the claims from these).
-/
import proofs.«404999_j70781061038436_3_alg».proof.Defs
import proofs.«404999_j70781061038436_3_alg».proof.Proof.Gen.Kernel
import proofs.«404999_j70781061038436_3_alg».proof.Proof.Gen.Kernel.Skeleton
import proofs.«404999_j70781061038436_3_alg».proof.Proof.Gen.Kernel.Launch
import proofs.«404999_j70781061038436_3_alg».proof.Proof.Gen.Kernel.Points
import proofs.«404999_j70781061038436_3_alg».proof.Proof.Gen.Kernel.Frame
import proofs.«404999_j70781061038436_3_alg».proof.Proof.Gen.KernelIdeal
import proofs.«404999_j70781061038436_3_alg».proof.Proof.Gen.KernelIdeal.Skeleton
import proofs.«404999_j70781061038436_3_alg».proof.Proof.Gen.KernelIdeal.Launch
import proofs.«404999_j70781061038436_3_alg».proof.Proof.Gen.KernelIdeal.Points
import proofs.«404999_j70781061038436_3_alg».proof.Proof.Gen.KernelIdeal.Frame
import proofs.«404999_j70781061038436_3_alg».proof.Proof.Gen.KernelIdeal.Value
import proofs.«404999_j70781061038436_3_alg».proof.Proof.Gen.ReferenceIdeal
import proofs.«404999_j70781061038436_3_alg».proof.Proof.Gen.ReferenceIdeal.Run
import proofs.«404999_j70781061038436_3_alg».proof.Proof.Gen.ReferenceIdeal.Read
import proofs.«404999_j70781061038436_3_alg».proof.Proof.Gen.Pre_finite_inputs
import proofs.«404999_j70781061038436_3_alg».proof.Proof.Spec
import proofs.«404999_j70781061038436_3_alg».proof.Proof.Law
import proofs.«404999_j70781061038436_3_alg».proof.Proof.KernelBlock
import proofs.«404999_j70781061038436_3_alg».proof.Proof.KernelArray
import proofs.«404999_j70781061038436_3_alg».proof.Proof.RefRead
import proofs.«404999_j70781061038436_3_alg».proof.Proof.RefPass
import proofs.«404999_j70781061038436_3_alg».proof.Proof.Finite
import proofs.«404999_j70781061038436_3_alg».proof.Proof.Claims
import Idealize.ShloMosaic.Adequacy
import Idealize.ShloMosaic.Init

noncomputable section

namespace Cert.Proof

open Idealize.ShloMosaic Idealize.SL.Sem Cert.Attn

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial,
  Claims.algebraic_of Ker.out_block attnSplit_eq_attnJoin Ref.out_eq (fun x1 x2 => Ref.newKeys_eq x1 x2) (fun x3 x4 => Ref.newValues_eq x3 x4)
    (fun m h c => real_of_pre m h c)⟩

end Cert.Proof

end
